-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000x64 : Shape := ⟨2, ![1000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S2x1000000 : Shape := ⟨2, ![2, 1000000]⟩
abbrev S100000 : Shape := ⟨1, ![100000]⟩
abbrev S2x50000 : Shape := ⟨2, ![2, 50000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg11 : FVec F S32 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  main_v58

def fn_part2 {F : FTy → Type} [FloatOps F] (main_arg7 : FVec F S64x64 .f32) (main_arg8 : FVec F S64x64 .f32) (main_arg9 : FVec F S64 .f32) (main_arg10 : FVec F S64x32 .f32) (main_arg11 : FVec F S32 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg10
  let main_cst_18 : FVec F S_ .f32 := constant S_ .f32 0x7F800000#32
  let main_v50 : FVec F S64x32 .f32 := broadcastInDim S64x32 ![] bcast_S_S64x32 main_cst_18
  fn_part3 (F := F) main_arg11 main_v48 main_v49 main_v50

def fn_part1 {F : FTy → Type} [FloatOps F] (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x32 .f32) (main_arg11 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x64 .f32) (main_arg1 : FVec F S1000x64 .f32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64x64 .f32) (main_arg9 : FVec F S64 .f32) (main_arg10 : FVec F S64x32 .f32) (main_arg11 : FVec F S32 .f32) (main_arg12 : IVec S2x1000000 32) (main_arg13 : IVec S100000 32) (main_arg14 : IVec S100000 32) (main_arg15 : IVec S2x50000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000x64 .f32 := Host.absf main_arg1
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_v13 main_v16
-- ==== Kernel.lean ====
abbrev S100000x64 : Shape := ⟨2, ![100000, 64]⟩
abbrev S1000x64 : Shape := ⟨2, ![1000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S2x1000000 : Shape := ⟨2, ![2, 1000000]⟩
abbrev S100000 : Shape := ⟨1, ![100000]⟩
abbrev S2x50000 : Shape := ⟨2, ![2, 50000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S1x32 : Shape := ⟨2, ![1, 32]⟩
abbrev S100000x32 : Shape := ⟨2, ![100000, 32]⟩
abbrev S5000x64 : Shape := ⟨2, ![5000, 64]⟩
abbrev S5000x1 : Shape := ⟨2, ![5000, 1]⟩
abbrev S5000x32 : Shape := ⟨2, ![5000, 32]⟩

abbrev nBuf : Space → Nat
  | .hbm => 57
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S1000x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x32, .f32⟩
  | .hbm, ⟨11, _⟩ => ⟨S32, .f32⟩
  | .hbm, ⟨12, _⟩ => ⟨S2x1000000, .i32⟩
  | .hbm, ⟨13, _⟩ => ⟨S100000, .i32⟩
  | .hbm, ⟨14, _⟩ => ⟨S100000, .i32⟩
  | .hbm, ⟨15, _⟩ => ⟨S2x50000, .i32⟩
  | .hbm, ⟨16, _⟩ => ⟨S1x1000000, .i32⟩
  | .hbm, ⟨17, _⟩ => ⟨S1000000, .i32⟩
  | .hbm, ⟨18, _⟩ => ⟨S1x1000000, .i32⟩
  | .hbm, ⟨19, _⟩ => ⟨S1000000, .i32⟩
  | .hbm, ⟨20, _⟩ => ⟨S_, .f32⟩
  | .hbm, ⟨21, _⟩ => ⟨S1000000, .f32⟩
  | .hbm, ⟨22, _⟩ => ⟨S_, .f32⟩
  | .hbm, ⟨23, _⟩ => ⟨S100000, .f32⟩
  | .hbm, ⟨24, _⟩ => ⟨S1000000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S_, .i32⟩
  | .hbm, ⟨41, _⟩ => ⟨S1000000, .i32⟩
  | .hbm, ⟨42, _⟩ => ⟨S1000000, .i1⟩
  | .hbm, ⟨43, _⟩ => ⟨S_, .i32⟩
  | .hbm, ⟨44, _⟩ => ⟨S1000000, .i32⟩
  | .hbm, ⟨45, _⟩ => ⟨S1000000, .i32⟩
  | .hbm, ⟨46, _⟩ => ⟨S1000000, .i32⟩
  | .hbm, ⟨47, _⟩ => ⟨S1000000x1, .i32⟩
  | .hbm, ⟨48, _⟩ => ⟨S1000000x64, .f32⟩
  | .hbm, ⟨49, _⟩ => ⟨S_, .f32⟩
  | .hbm, ⟨50, _⟩ => ⟨S100000x64, .f32⟩
  | .hbm, ⟨51, _⟩ => ⟨S1000000x1, .i32⟩
  | .hbm, ⟨52, _⟩ => ⟨S100000x64, .f32⟩
  | .hbm, ⟨53, _⟩ => ⟨S100000x1, .f32⟩
  | .hbm, ⟨54, _⟩ => ⟨S1x64, .f32⟩
  | .hbm, ⟨55, _⟩ => ⟨S1x32, .f32⟩
  | .hbm, ⟨56, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S1x64, .f32⟩
  | .local _ .vmem, ⟨6, _⟩ => ⟨S64x32, .f32⟩
  | .local _ .vmem, ⟨7, _⟩ => ⟨S1x32, .f32⟩
  | .local _ .vmem, ⟨8, _⟩ => ⟨S5000x32, .f32⟩
  | .local _ .vmem, ⟨9, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S32_S1x32 : S32.ShapeCasts S1x32
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v26) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000x64 : Shape := ⟨2, ![1000, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S2x1000000 : Shape := ⟨2, ![2, 1000000]⟩
abbrev S100000 : Shape := ⟨1, ![100000]⟩
abbrev S2x50000 : Shape := ⟨2, ![2, 50000]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64 : Shape := ⟨2, ![1, 64]⟩
abbrev S100000x1 : Shape := ⟨2, ![100000, 1]⟩
abbrev S1000 : Shape := ⟨1, ![1000]⟩
abbrev S1000x1 : Shape := ⟨2, ![1000, 1]⟩
abbrev S1x50000 : Shape := ⟨2, ![1, 50000]⟩
abbrev S50000 : Shape := ⟨1, ![50000]⟩
abbrev S50000x1 : Shape := ⟨2, ![50000, 1]⟩
abbrev S50000x64 : Shape := ⟨2, ![50000, 64]⟩
abbrev S100000x32 : Shape := ⟨2, ![100000, 32]⟩
abbrev S1x32 : Shape := ⟨2, ![1, 32]⟩

abbrev nBuf : Space → Nat
  | .hbm => 153
  | .vmem => 0
  | .smem => 0
  | _ => 0

abbrev hbmTy0_0 (i : Nat) : BufTy := match i % 128 with
  | 0 => ⟨S100000x64, .f32⟩
  | 1 => ⟨S1000x64, .f32⟩
  | 2 => ⟨S64x64, .f32⟩
  | 3 => ⟨S64, .f32⟩
  | 4 => ⟨S64x64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x32, .f32⟩
  | 11 => ⟨S32, .f32⟩
  | 12 => ⟨S2x1000000, .i32⟩
  | 13 => ⟨S100000, .i32⟩
  | 14 => ⟨S100000, .i32⟩
  | 15 => ⟨S2x50000, .i32⟩
  | 16 => ⟨S1x1000000, .i32⟩
  | 17 => ⟨S1000000, .i32⟩
  | 18 => ⟨S1x1000000, .i32⟩
  | 19 => ⟨S1000000, .i32⟩
  | 20 => ⟨S_, .f32⟩
  | 21 => ⟨S1000000, .f32⟩
  | 22 => ⟨S_, .f32⟩
  | 23 => ⟨S100000, .f32⟩
  | 24 => ⟨S1000000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1000000, .i32⟩
  | 39 => ⟨S1000000, .i1⟩
  | 40 => ⟨S_, .i32⟩
  | 41 => ⟨S1000000, .i32⟩
  | 42 => ⟨S1000000, .i32⟩
  | 43 => ⟨S1000000, .i32⟩
  | 44 => ⟨S1000000x1, .i32⟩
  | 45 => ⟨S1000000, .f32⟩
  | 46 => ⟨S_, .i32⟩
  | 47 => ⟨S1000000, .i32⟩
  | 48 => ⟨S1000000, .i1⟩
  | 49 => ⟨S_, .i32⟩
  | 50 => ⟨S1000000, .i32⟩
  | 51 => ⟨S1000000, .i32⟩
  | 52 => ⟨S1000000, .i32⟩
  | 53 => ⟨S1000000x1, .i32⟩
  | 54 => ⟨S1000000, .f32⟩
  | 55 => ⟨S1000000, .f32⟩
  | 56 => ⟨S100000x64, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x64, .f32⟩
  | 66 => ⟨S1000000x1, .f32⟩
  | 67 => ⟨S1000000x64, .f32⟩
  | 68 => ⟨S1000000x64, .f32⟩
  | 69 => ⟨S_, .f32⟩
  | 70 => ⟨S100000x64, .f32⟩
  | 71 => ⟨S1000000x1, .i32⟩
  | 72 => ⟨S100000x64, .f32⟩
  | 73 => ⟨S1x64, .f32⟩
  | 74 => ⟨S100000x64, .f32⟩
  | 75 => ⟨S100000x64, .f32⟩
  | 76 => ⟨S_, .i32⟩
  | 77 => ⟨S100000, .i32⟩
  | 78 => ⟨S100000, .i1⟩
  | 79 => ⟨S_, .i32⟩
  | 80 => ⟨S100000, .i32⟩
  | 81 => ⟨S100000, .i32⟩
  | 82 => ⟨S100000, .i32⟩
  | 83 => ⟨S100000x1, .i32⟩
  | 84 => ⟨S100000x64, .f32⟩
  | 85 => ⟨S_, .f32⟩
  | 86 => ⟨S1000x64, .f32⟩
  | 87 => ⟨S100000x1, .i32⟩
  | 88 => ⟨S1000x64, .f32⟩
  | 89 => ⟨S_, .f32⟩
  | 90 => ⟨S100000, .f32⟩
  | 91 => ⟨S_, .f32⟩
  | 92 => ⟨S1000, .f32⟩
  | 93 => ⟨S100000x1, .i32⟩
  | 94 => ⟨S1000, .f32⟩
  | 95 => ⟨S_, .f32⟩
  | 96 => ⟨S1000, .f32⟩
  | 97 => ⟨S1000, .f32⟩
  | 98 => ⟨S1000x1, .f32⟩
  | 99 => ⟨S1000x64, .f32⟩
  | 100 => ⟨S1000x64, .f32⟩
  | 101 => ⟨S1000x64, .f32⟩
  | 102 => ⟨S1x64, .f32⟩
  | 103 => ⟨S1000x64, .f32⟩
  | 104 => ⟨S1000x64, .f32⟩
  | 105 => ⟨S1000x64, .f32⟩
  | 106 => ⟨S1000x64, .f32⟩
  | 107 => ⟨S1x50000, .i32⟩
  | 108 => ⟨S50000, .i32⟩
  | 109 => ⟨S1x50000, .i32⟩
  | 110 => ⟨S50000, .i32⟩
  | 111 => ⟨S_, .i32⟩
  | 112 => ⟨S50000, .i32⟩
  | 113 => ⟨S50000, .i1⟩
  | 114 => ⟨S_, .i32⟩
  | 115 => ⟨S50000, .i32⟩
  | 116 => ⟨S50000, .i32⟩
  | 117 => ⟨S50000, .i32⟩
  | 118 => ⟨S50000x1, .i32⟩
  | 119 => ⟨S50000x64, .f32⟩
  | 120 => ⟨S_, .f32⟩
  | 121 => ⟨S1000x64, .f32⟩
  | 122 => ⟨S50000x1, .i32⟩
  | 123 => ⟨S1000x64, .f32⟩
  | 124 => ⟨S_, .f32⟩
  | 125 => ⟨S50000, .f32⟩
  | 126 => ⟨S_, .f32⟩
  | 127 => ⟨S1000, .f32⟩
  | _ => ⟨S100000x64, .f32⟩

abbrev hbmTy0_1 (i : Nat) : BufTy := match i % 128 with
  | 0 => ⟨S50000x1, .i32⟩
  | 1 => ⟨S1000, .f32⟩
  | 2 => ⟨S_, .f32⟩
  | 3 => ⟨S1000, .f32⟩
  | 4 => ⟨S1000, .f32⟩
  | 5 => ⟨S1000x1, .f32⟩
  | 6 => ⟨S1000x64, .f32⟩
  | 7 => ⟨S1000x64, .f32⟩
  | 8 => ⟨S1000x64, .f32⟩
  | 9 => ⟨S1x64, .f32⟩
  | 10 => ⟨S1000x64, .f32⟩
  | 11 => ⟨S1000x64, .f32⟩
  | 12 => ⟨S1000x64, .f32⟩
  | 13 => ⟨S1000x64, .f32⟩
  | 14 => ⟨S_, .f32⟩
  | 15 => ⟨S100000x64, .f32⟩
  | 16 => ⟨S100000x64, .f32⟩
  | 17 => ⟨S1000x64, .f32⟩
  | 18 => ⟨S_, .f32⟩
  | 19 => ⟨S1000x64, .f32⟩
  | 20 => ⟨S1000x64, .f32⟩
  | 21 => ⟨S100000x32, .f32⟩
  | 22 => ⟨S1x32, .f32⟩
  | 23 => ⟨S100000x32, .f32⟩
  | 24 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_4 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_5 : Ref sig .tc := ⟨.hbm, 46, rfl⟩
abbrev main_v21 : Ref sig .tc := ⟨.hbm, 47, rfl⟩
abbrev main_v22 : Ref sig .tc := ⟨.hbm, 48, rfl⟩
abbrev main_c_6 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_c_7 : Ref sig .tc := ⟨.hbm, 57, rfl⟩
abbrev main_v30 : Ref sig .tc := ⟨.hbm, 58, rfl⟩
abbrev main_v31 : Ref sig .tc := ⟨.hbm, 59, rfl⟩
abbrev main_c_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_10 : Ref sig .tc := ⟨.hbm, 76, rfl⟩
abbrev main_v46 : Ref sig .tc := ⟨.hbm, 77, rfl⟩
abbrev main_v47 : Ref sig .tc := ⟨.hbm, 78, rfl⟩
abbrev main_c_11 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_16 : Ref sig .tc := ⟨.hbm, 111, rfl⟩
abbrev main_v75 : Ref sig .tc := ⟨.hbm, 112, rfl⟩
abbrev main_v76 : Ref sig .tc := ⟨.hbm, 113, rfl⟩
abbrev main_c_17 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_18 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_cst_20 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_21 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call1_cst : Ref sig .tc := ⟨.hbm, 142, rfl⟩
abbrev main_call1_v0 : Ref sig .tc := ⟨.hbm, 143, rfl⟩
abbrev main_v100 : Ref sig .tc := ⟨.hbm, 144, rfl⟩
abbrev main_v101 : Ref sig .tc := ⟨.hbm, 145, rfl⟩
abbrev main_call2_cst : Ref sig .tc := ⟨.hbm, 146, rfl⟩
abbrev main_call2_v0 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000_S100000x1_0 : S100000.BroadcastsInDim S100000x1 (![0] : Fin 1 → Fin S100000x1.rank)
  bcast_S_S1000x64 : S_.BroadcastsInDim S1000x64 (![] : Fin 0 → Fin S1000x64.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  bcast_S1x64_S1000x64_0_1 : S1x64.BroadcastsInDim S1000x64 (![0, 1] : Fin 2 → Fin S1000x64.rank)
  slices_S2x50000_S1x50000_0_0 : S2x50000.Slices ![0, 0] S1x50000
  shapeCasts_S1x50000_S50000 : S1x50000.ShapeCasts S50000
  slices_S2x50000_S1x50000_1_0 : S2x50000.Slices ![1, 0] S1x50000
  bcast_S_S50000 : S_.BroadcastsInDim S50000 (![] : Fin 0 → Fin S50000.rank)
  bcast_S50000_S50000x1_0 : S50000.BroadcastsInDim S50000x1 (![0] : Fin 1 → Fin S50000x1.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  dot_S100000x64_S64x64_S100000x64_1_0_0_1_n_n_wf : DotDims.WF S100000x64 S64x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  gather_S100000x64_S100000x1_S100000x64_1_0_n_n_0_1_164_wf : GatherDims.WF S100000x64 S100000x1 S100000x64 [1] [0] [] [0] [] 1 ![1, 64]
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x64_S1000x64_1_0_0_1_n_n_wf : DotDims.WF S1000x64 S64x64 S1000x64 [1] [0] [0] [1] [] []
  gather_S1000x64_S50000x1_S50000x64_1_0_n_n_0_1_164_wf : GatherDims.WF S1000x64 S50000x1 S50000x64 [1] [0] [] [0] [] 1 ![1, 64]
  scatter_S1000x64_S50000x1_S50000x64_1_0_0_1_wf : ScatterDims.WF S1000x64 S50000x1 S50000x64 [1] [0] [0] 1
  scatter_S1000_S50000x1_S50000_n_0_0_1_wf : ScatterDims.WF S1000 S50000x1 S50000 [] [0] [0] 1
  dot_S100000x64_S64x32_S100000x32_1_0_0_1_n_n_wf : DotDims.WF S100000x64 S64x32 S100000x32 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def gather_S1000x64_S50000x1_S50000x64_1_0_n_n_0_1_164 : GatherDims S1000x64 S50000x1 S50000x64 where
  offsetDims := [1]
  collapsedSliceDims := [0]
  operandBatchingDims := []
  startIndicesBatchingDims := []
  startIndexMap := [0]
  indexVectorDim := 1
  sliceSizes := ![1, 64]
  wf := gather_S1000x64_S50000x1_S50000x64_1_0_n_n_0_1_164_wf
def scatter_S1000x64_S50000x1_S50000x64_1_0_0_1 : ScatterDims S1000x64 S50000x1 S50000x64 where
  updateWindowDims := [1]
  insertedWindowDims := [0]
  scatterDimsToOperandDims := [0]
  indexVectorDim := 1
  wf := scatter_S1000x64_S50000x1_S50000x64_1_0_0_1_wf
def scatter_S1000_S50000x1_S50000_n_0_0_1 : ScatterDims S1000 S50000x1 S50000 where
  updateWindowDims := []
  insertedWindowDims := [0]
  scatterDimsToOperandDims := [0]
  indexVectorDim := 1
  wf := scatter_S1000_S50000x1_S50000_n_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelHost.lean ====
/-
  The arrays the kernel's region finds, as the host operations before it leave them, for every float instance.

  The destination indices, the wrapped source indices and the normalising factors are computed from the edge array by the
  same operations in both programs, so each equals the reference's term of the edge array. The aggregate is the
  accumulating scatter, by destination, of the rows of `x · factor` gathered by source; the factor column and the two
  bias rows are reshapes.
-/
import proofs.«412220_j42537356100337_3_alg».proof.Proof.Gen.KernelIdeal.Frame
import proofs.«412220_j42537356100337_3_alg».proof.Proof.RefRead
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The destination index of every edge. -/
theorem col_eq (c : Dev nD) : (V m c main_v3 : IVec S1000000 32)
    = Cert.ReferenceIdeal.ReadP.val_main_v3 (F := F) (m ((c : Thread nD τ).loc main_arg12)) := by
  dsimp only [V]
  simp only [hostOps0, hostOps0_1, hostOps0_2, List.flatten_cons, List.flatten_nil, List.append_nil, List.cons_append, List.nil_append]
  after_results
  rfl

set_option maxHeartbeats 4000000 in
/-- The source index of every edge, a negative one wrapped once. -/
theorem row_eq (c : Dev nD) : (V m c main_v21 : IVec S1000000 32)
    = Cert.ReferenceIdeal.ReadP.val_main_v34 (F := F) (m ((c : Thread nD τ).loc main_arg12)) := by
  dsimp only [V]
  simp only [hostOps0, hostOps0_1, hostOps0_2, List.flatten_cons, List.flatten_nil, List.append_nil, List.cons_append, List.nil_append]
  after_results
  rfl

set_option maxHeartbeats 4000000 in
/-- The normalising factor of every node. -/
theorem fac_eq (c : Dev nD) : (V m c main_v13 : FVec F S100000 .f32)
    = Cert.ReferenceIdeal.ReadP.val_main_v13 (F := F) (m ((c : Thread nD τ).loc main_arg12)) := by
  dsimp only [V]
  simp only [hostOps0, hostOps0_1, hostOps0_2, List.flatten_cons, List.flatten_nil, List.append_nil, List.cons_append, List.nil_append]
  after_results
  simp only [TRef.ofBuf, TRef.toBuf, cast_eq]
  rfl

set_option maxHeartbeats 4000000 in
/-- The aggregate: the accumulating scatter, by destination index, of the rows of `x · factor` gathered by source index. -/
theorem agg_eq (c : Dev nD) : (V m c main_v26 : FVec F S100000x64 .f32)
    = Host.scatterAdd scatter_S100000x64_S1000000x1_S1000000x64_1_0_0_1
        (broadcastInDim S100000x64 ![] bcast_S_S100000x64 (constant (F := F) S_ .f32 0x00000000#32))
        (broadcastInDim S1000000x1 ![0] bcast_S1000000_S1000000x1_0
          (Cert.ReferenceIdeal.ReadP.val_main_v3 (F := F) (m ((c : Thread nD τ).loc main_arg12))))
        (Host.gather gather_S100000x64_S1000000x1_S1000000x64_1_0_n_n_0_1_164
          (mulf (m ((c : Thread nD τ).loc main_arg0))
            (broadcastInDim S100000x64 ![0, 1] bcast_S100000x1_S100000x64_0_1
              (broadcastInDim S100000x1 ![0] bcast_S100000_S100000x1_0
                (Cert.ReferenceIdeal.ReadP.val_main_v13 (F := F) (m ((c : Thread nD τ).loc main_arg12))))))
          (broadcastInDim S1000000x1 ![0] bcast_S1000000_S1000000x1_0
            (Cert.ReferenceIdeal.ReadP.val_main_v34 (F := F) (m ((c : Thread nD τ).loc main_arg12))))) := by
  rw [← col_eq m c, ← row_eq m c, ← fac_eq m c]
  dsimp only [V]
  simp only [hostOps0, hostOps0_1, hostOps0_2, List.flatten_cons, List.flatten_nil, List.append_nil, List.cons_append, List.nil_append]
  after_results

set_option maxHeartbeats 4000000 in
/-- The factors as a column. -/
theorem fcol_eq (c : Dev nD) : (V m c main_v27 : FVec F S100000x1 .f32)
    = shapeCast S100000x1 (Cert.ReferenceIdeal.ReadP.val_main_v13 (F := F) (m ((c : Thread nD τ).loc main_arg12)))
        shapeCasts_S100000_S100000x1 := by
  rw [← fac_eq m c]
  dsimp only [V]
  simp only [hostOps0, hostOps0_1, hostOps0_2, List.flatten_cons, List.flatten_nil, List.append_nil, List.cons_append, List.nil_append]
  after_results
  simp only [TRef.ofBuf, TRef.toBuf, cast_eq]
  rfl

/-- The first bias as a row. -/
theorem bgrow_eq (c : Dev nD) : (V m c main_v28 : FVec F S1x64 .f32)
    = shapeCast S1x64 (m ((c : Thread nD τ).loc main_arg3)) shapeCasts_S64_S1x64 := by
  dsimp only [V]
  simp only [hostOps0, hostOps0_1, hostOps0_2, List.flatten_cons, List.flatten_nil, List.append_nil, List.cons_append, List.nil_append]
  after_results
  rfl

/-- The second bias as a row. -/
theorem blrow_eq (c : Dev nD) : (V m c main_v29 : FVec F S1x32 .f32)
    = shapeCast S1x32 (m ((c : Thread nD τ).loc main_arg11)) shapeCasts_S32_S1x32 := by
  dsimp only [V]
  simp only [hostOps0, hostOps0_1, hostOps0_2, List.flatten_cons, List.flatten_nil, List.append_nil, List.cons_append, List.nil_append]
  after_results
  rfl

end Cert.KernelIdeal.KHost

end
-- ==== Proof.KernelPayload.lean ====
/-
  The kernel body's one stored value, read at an index of its block, at the ideal instance.

  With `a` the block of aggregated rows, `s` the column of destination factors, `wg`, `bg`, `wl`, `bl` the two weight
  matrices and bias rows, entry (p, o) of the stored block is
      (∑ j, max ((∑ k, (a p k * s p) * wg k j) + bg j) 0 * wl j o) + bl o :
  a change of float format is the identity on the extended reals, a matrix product into a zero accumulator is the plain
  sum of products, and a broadcast of a column or a row reads the column's or row's entry.
-/
import proofs.«412220_j42537356100337_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The two matrix products: operand indices at output (p, j) and contraction index k are (p, k) and (k, j) -/

theorem lhsA_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsA_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsA_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsA_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The first product (aggregate × W_gcn) into a zero accumulator, with each operand's factors named. -/
theorem matmulA_of_eq {φ₁ φ₂ : FTy} (l : FVec Ideal S5000x64 φ₁) (r : FVec Ideal S64x64 φ₂) (p : Fin 5000) (j : Fin 64)
    (L R : Fin 64 → EReal) (hl : ∀ k, l (ix2 p k) = L k) (hr : ∀ k, r (ix2 k j) = R k) :
    FloatOps.matmul dot_S5000x64_S64x64_S5000x64_1_0_0_1_n_n none l r (constant S5000x64 .f32 0x00000000#32) (ix2 p j)
      = ∑ k : Fin 64, L k * R k := by
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p j) ((ValueIdx.contrEquiv1 dot_S5000x64_S64x64_S5000x64_1_0_0_1_n_n 64 rfl rfl).symm k) = ix2 p k := funext fun a => Fin.ext (by
    match a with
    | ⟨0, _⟩ => exact lhsA_0 _ _
    | ⟨1, _⟩ => exact (lhsA_1 _ _).trans hk)
  have er : dot_S5000x64_S64x64_S5000x64_1_0_0_1_n_n.rhsIdx (ix2 p j) ((ValueIdx.contrEquiv1 dot_S5000x64_S64x64_S5000x64_1_0_0_1_n_n 64 rfl rfl).symm k) = ix2 k j := funext fun a => Fin.ext (by
    match a with
    | ⟨0, _⟩ => exact (rhsA_0 _ _).trans hk
    | ⟨1, _⟩ => exact rhsA_1 _ _)
  rw [el, er, hl, hr]

theorem lhsB_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhsB_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhsB_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhsB_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The second product (hidden × W_lin) into a zero accumulator, with each operand's factors named. -/
theorem matmulB_of_eq {φ₁ φ₂ : FTy} (l : FVec Ideal S5000x64 φ₁) (r : FVec Ideal S64x32 φ₂) (p : Fin 5000) (o : Fin 32)
    (L R : Fin 64 → EReal) (hl : ∀ j, l (ix2 p j) = L j) (hr : ∀ j, r (ix2 j o) = R j) :
    FloatOps.matmul dot_S5000x64_S64x32_S5000x32_1_0_0_1_n_n none l r (constant S5000x32 .f32 0x00000000#32) (ix2 p o)
      = ∑ j : Fin 64, L j * R j := by
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p o) ((ValueIdx.contrEquiv1 dot_S5000x64_S64x32_S5000x32_1_0_0_1_n_n 64 rfl rfl).symm k) = ix2 p k := funext fun a => Fin.ext (by
    match a with
    | ⟨0, _⟩ => exact lhsB_0 _ _
    | ⟨1, _⟩ => exact (lhsB_1 _ _).trans hk)
  have er : dot_S5000x64_S64x32_S5000x32_1_0_0_1_n_n.rhsIdx (ix2 p o) ((ValueIdx.contrEquiv1 dot_S5000x64_S64x32_S5000x32_1_0_0_1_n_n 64 rfl rfl).symm k) = ix2 k o := funext fun a => Fin.ext (by
    match a with
    | ⟨0, _⟩ => exact (rhsB_0 _ _).trans hk
    | ⟨1, _⟩ => exact rhsB_1 _ _)
  rw [el, er, hl, hr]

/-! ## The three broadcasts -/

/-- A column [5000, 1] broadcast along the rows' 64 entries reads the row's one entry. -/
theorem bcast_col (v : S5000x1.Idx → EReal) (p : Fin 5000) (k : Fin 64) :
    broadcastTo S5000x64 v broadcasts_S5000x1_S5000x64 (ix2 p k) = v (ix2 p 0) :=
  broadcastTo_apply v _ (ix2 p k) (ix2 p 0) (fun a => by match a with | ⟨0, _⟩ => rfl | ⟨1, _⟩ => rfl)

/-- A row [1, 64] broadcast down 5000 rows reads the column's entry. -/
theorem bcast_row64 (v : S1x64.Idx → EReal) (p : Fin 5000) (j : Fin 64) :
    broadcastTo S5000x64 v broadcasts_S1x64_S5000x64 (ix2 p j) = v (ix2 0 j) :=
  broadcastTo_apply v _ (ix2 p j) (ix2 0 j) (fun a => by match a with | ⟨0, _⟩ => rfl | ⟨1, _⟩ => rfl)

/-- A row [1, 32] broadcast down 5000 rows reads the column's entry. -/
theorem bcast_row32 (v : S1x32.Idx → EReal) (p : Fin 5000) (o : Fin 32) :
    broadcastTo S5000x32 v broadcasts_S1x32_S5000x32 (ix2 p o) = v (ix2 0 o) :=
  broadcastTo_apply v _ (ix2 p o) (ix2 0 o) (fun a => by match a with | ⟨0, _⟩ => rfl | ⟨1, _⟩ => rfl)

/-! ## The stored value at (p, o) -/

theorem pay_apply (a : FVec Ideal S5000x64 .f32) (s : FVec Ideal S5000x1 .f32) (wg : FVec Ideal S64x64 .f32)
    (bg : FVec Ideal S1x64 .f32) (wl : FVec Ideal S64x32 .f32) (bl : FVec Ideal S1x32 .f32) (p : Fin 5000) (o : Fin 32) :
    k0_pay1 (F := Ideal) a s wg bg wl bl (ix2 p o)
      = (∑ j : Fin 64, max ((∑ k : Fin 64, (a (ix2 p k) * s (ix2 p 0)) * wg (ix2 k j)) + bg (ix2 0 j)) 0 * wl (ix2 j o))
        + bl (ix2 0 o) := by
  unfold k0_pay1
  simp only [shapeCast_self]
  rw [addf_apply, bcast_row32]
  refine congrArg (· + bl (ix2 0 o)) ?_
  refine matmulB_of_eq _ _ p o (fun j => max ((∑ k : Fin 64, (a (ix2 p k) * s (ix2 p 0)) * wg (ix2 k j)) + bg (ix2 0 j)) 0)
    (fun j => wl (ix2 j o)) (fun j => ?_) (fun j => rfl)
  rw [truncf_apply, maximumf_apply, addf_apply, bcast_row64, broadcast_apply]
  show max (_ + bg (ix2 0 j)) (Ideal.ofBits .f32 0#32) = _
  rw [Ideal.ofBits_zero_f32]
  refine congrArg (fun t => max (t + bg (ix2 0 j)) 0) ?_
  refine matmulA_of_eq _ _ p j (fun k => a (ix2 p k) * s (ix2 p 0)) (fun k => wg (ix2 k j)) (fun k => ?_) (fun k => rfl)
  rw [truncf_apply, mulf_apply, bcast_col]

end Cert.KernelIdeal.Payload

end
-- ==== Proof.KernelValue.lean ====
/-
  From the kernel's blocks to its result array, at the ideal instance.

  Grid point t stores rows [5000 t, 5000 t + 5000) of the result. Its aggregate block and its column of destination
  factors are the same rows of their arrays; both weight matrices and both bias rows are whole at every point. So what
  point t writes back is block t of ONE function of the whole arrays, `dense`: entry (n, o) is
      (∑ j, max ((∑ k, (A n k * s n) * Wg k j) + bg j) 0 * Wl j o) + bl o,
  and since the twenty blocks tile the 100000 rows the result array after the run is `dense` of the arrays.
-/
import proofs.«412220_j42537356100337_3_alg».proof.Proof.Gen.KernelIdeal.Value
import proofs.«412220_j42537356100337_3_alg».proof.Proof.KernelPayload

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The two dense layers over whole arrays: aggregate rows `A`, the column `s` of destination factors, the weights
    and the bias rows. -/
def denseAt (A : FVec Ideal S100000x64 .f32) (s : FVec Ideal S100000x1 .f32) (wg : FVec Ideal S64x64 .f32)
    (bg : FVec Ideal S1x64 .f32) (wl : FVec Ideal S64x32 .f32) (bl : FVec Ideal S1x32 .f32) (n : Fin 100000) (o : Fin 32) : EReal :=
  (∑ j : Fin 64, max ((∑ k : Fin 64, (A (ix2 n k) * s (ix2 n 0)) * wg (ix2 k j)) + bg (ix2 0 j)) 0 * wl (ix2 j o)) + bl (ix2 0 o)

/-- The same as an array: entry `i` is `denseAt` at `i`'s two coordinates. -/
def dense (A : FVec Ideal S100000x64 .f32) (s : FVec Ideal S100000x1 .f32) (wg : FVec Ideal S64x64 .f32)
    (bg : FVec Ideal S1x64 .f32) (wl : FVec Ideal S64x32 .f32) (bl : FVec Ideal S1x32 .f32) : FVec Ideal S100000x32 .f32 :=
  fun i => denseAt A s wg bg wl bl ⟨(i 0).val, idx2_lt0 i⟩ ⟨(i 1).val, idx2_lt1 i⟩

/-- The arrays as the region finds them, at their literal types. -/
abbrev aggArr (c : Dev nD) : FVec Ideal S100000x64 .f32 := V m c (Pipeline.arrRef spec0 0)
abbrev facCol (c : Dev nD) : FVec Ideal S100000x1 .f32 := V m c (Pipeline.arrRef spec0 1)
abbrev wgArr (c : Dev nD) : FVec Ideal S64x64 .f32 := V m c (Pipeline.arrRef spec0 2)
abbrev bgRow (c : Dev nD) : FVec Ideal S1x64 .f32 := V m c (Pipeline.arrRef spec0 3)
abbrev wlArr (c : Dev nD) : FVec Ideal S64x32 .f32 := V m c (Pipeline.arrRef spec0 4)
abbrev blRow (c : Dev nD) : FVec Ideal S1x32 .f32 := V m c (Pipeline.arrRef spec0 5)

/-- The printed index maps over the twenty points: the two row-blocked inputs move with the output's block row, every
    other block index is zero, and the output's block row is the point's number. -/
theorem idx_facts : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 19 ∧ win0_6.index t (1 : Fin 2) = 0 :=
  (by decide +kernel : ∀ t : Fin grid0.N, _)

/-- Every block row is some point's. -/
theorem idx_onto : ∀ q : Fin 20, ∃ t : Fin cfg0.N, win0_6.index t = ![q.val, 0] :=
  (by decide +kernel : ∀ q : Fin 20, ∃ t : Fin grid0.N, win0_6.index t = ![q.val, 0])

/-! ## Each input window's block at a point, read at an entry, is the array at the entry's place in the array -/

theorem rd0 (t : Fin cfg0.N) (A : FVec Ideal S100000x64 .f32) (p : Fin 5000) (k : Fin 64) (n : Fin 100000)
    (hn : n.val = win0_6.index t (0 : Fin 2) * 5000 + p.val) :
    ((cfg0.win 0).blk t).view.read (Elt Ideal) A (ix2 p k) = A (ix2 n k) := by
  obtain ⟨e00, e01, -⟩ := idx_facts t
  show A (((cfg0.win 0).blk t).view.emb (ix2 p k)) = A (ix2 n k)
  refine congrArg A (funext fun a => Fin.ext ?_)
  match a with
  | ⟨0, _⟩ => show win0_0.index t (0 : Fin 2) * 5000 + 1 * p.val = n.val; omega
  | ⟨1, _⟩ => show win0_0.index t (1 : Fin 2) * 64 + 1 * k.val = k.val; omega

theorem rd1 (t : Fin cfg0.N) (A : FVec Ideal S100000x1 .f32) (p : Fin 5000) (n : Fin 100000)
    (hn : n.val = win0_6.index t (0 : Fin 2) * 5000 + p.val) :
    ((cfg0.win 1).blk t).view.read (Elt Ideal) A (ix2 p 0) = A (ix2 n 0) := by
  obtain ⟨-, -, e10, e11, -⟩ := idx_facts t
  show A (((cfg0.win 1).blk t).view.emb (ix2 p 0)) = A (ix2 n 0)
  refine congrArg A (funext fun a => Fin.ext ?_)
  match a with
  | ⟨0, _⟩ => show win0_1.index t (0 : Fin 2) * 5000 + 1 * p.val = n.val; omega
  | ⟨1, _⟩ => show win0_1.index t (1 : Fin 2) * 1 + 1 * 0 = 0; omega

theorem rd2 (t : Fin cfg0.N) (A : FVec Ideal S64x64 .f32) (k j : Fin 64) :
    ((cfg0.win 2).blk t).view.read (Elt Ideal) A (ix2 k j) = A (ix2 k j) := by
  obtain ⟨-, -, -, -, e20, e21, -⟩ := idx_facts t
  show A (((cfg0.win 2).blk t).view.emb (ix2 k j)) = A (ix2 k j)
  refine congrArg A (funext fun a => Fin.ext ?_)
  match a with
  | ⟨0, _⟩ => show win0_2.index t (0 : Fin 2) * 64 + 1 * k.val = k.val; omega
  | ⟨1, _⟩ => show win0_2.index t (1 : Fin 2) * 64 + 1 * j.val = j.val; omega

theorem rd3 (t : Fin cfg0.N) (A : FVec Ideal S1x64 .f32) (j : Fin 64) :
    ((cfg0.win 3).blk t).view.read (Elt Ideal) A (ix2 0 j) = A (ix2 0 j) := by
  obtain ⟨-, -, -, -, -, -, e30, e31, -⟩ := idx_facts t
  show A (((cfg0.win 3).blk t).view.emb (ix2 0 j)) = A (ix2 0 j)
  refine congrArg A (funext fun a => Fin.ext ?_)
  match a with
  | ⟨0, _⟩ => show win0_3.index t (0 : Fin 2) * 1 + 1 * 0 = 0; omega
  | ⟨1, _⟩ => show win0_3.index t (1 : Fin 2) * 64 + 1 * j.val = j.val; omega

theorem rd4 (t : Fin cfg0.N) (A : FVec Ideal S64x32 .f32) (j : Fin 64) (o : Fin 32) :
    ((cfg0.win 4).blk t).view.read (Elt Ideal) A (ix2 j o) = A (ix2 j o) := by
  obtain ⟨-, -, -, -, -, -, -, -, e40, e41, -⟩ := idx_facts t
  show A (((cfg0.win 4).blk t).view.emb (ix2 j o)) = A (ix2 j o)
  refine congrArg A (funext fun a => Fin.ext ?_)
  match a with
  | ⟨0, _⟩ => show win0_4.index t (0 : Fin 2) * 64 + 1 * j.val = j.val; omega
  | ⟨1, _⟩ => show win0_4.index t (1 : Fin 2) * 32 + 1 * o.val = o.val; omega

theorem rd5 (t : Fin cfg0.N) (A : FVec Ideal S1x32 .f32) (o : Fin 32) :
    ((cfg0.win 5).blk t).view.read (Elt Ideal) A (ix2 0 o) = A (ix2 0 o) := by
  obtain ⟨-, -, -, -, -, -, -, -, -, -, e50, e51, -⟩ := idx_facts t
  show A (((cfg0.win 5).blk t).view.emb (ix2 0 o)) = A (ix2 0 o)
  refine congrArg A (funext fun a => Fin.ext ?_)
  match a with
  | ⟨0, _⟩ => show win0_5.index t (0 : Fin 2) * 1 + 1 * 0 = 0; omega
  | ⟨1, _⟩ => show win0_5.index t (1 : Fin 2) * 32 + 1 * o.val = o.val; omega

/-- The body's stored block at point `t`, over ANY six arrays read through the point's input blocks, is block `t` of
    `dense` of those arrays. -/
theorem flushed_core (t : Fin cfg0.N) (A0 : FVec Ideal S100000x64 .f32) (A1 : FVec Ideal S100000x1 .f32)
    (A2 : FVec Ideal S64x64 .f32) (A3 : FVec Ideal S1x64 .f32) (A4 : FVec Ideal S64x32 .f32) (A5 : FVec Ideal S1x32 .f32) :
    (cfg0.win 6).cut (grid0.coords t) (out0_6 (((cfg0.win 0).blk t).view.read (Elt Ideal) A0)
        (((cfg0.win 1).blk t).view.read (Elt Ideal) A1) (((cfg0.win 2).blk t).view.read (Elt Ideal) A2)
        (((cfg0.win 3).blk t).view.read (Elt Ideal) A3) (((cfg0.win 4).blk t).view.read (Elt Ideal) A4)
        (((cfg0.win 5).blk t).view.read (Elt Ideal) A5))
      = ((cfg0.win 6).blk t).view.read (Elt Ideal) (dense A0 A1 A2 A3 A4 A5) := by
  unfold out0_6
  rw [View.canon_unit_zero hz]
  simp only [View.ld_unit_zero (S := S5000x64) hz, View.ld_unit_zero (S := S5000x1) hz, View.ld_unit_zero (S := S64x64) hz,
    View.ld_unit_zero (S := S1x64) hz, View.ld_unit_zero (S := S64x32) hz, View.ld_unit_zero (S := S1x32) hz]
  obtain ⟨-, -, -, -, -, -, -, -, -, -, -, -, e6a, e6b⟩ := idx_facts t
  funext (y : S5000x32.Idx)
  obtain ⟨p, o, rfl⟩ : ∃ (p : Fin 5000) (o : Fin 32), y = ix2 p o := ⟨y 0, y 1, eq_ix2 y⟩
  show k0_pay1 (F := Ideal) (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4) (((cfg0.win 5).blk t).view.read (Elt Ideal) A5) (ix2 p o)
    = dense A0 A1 A2 A3 A4 A5 (((cfg0.win 6).blk t).view.emb (ix2 p o))
  refine (Payload.pay_apply _ _ _ _ _ _ p o).trans ?_
  have hn : (⟨((((cfg0.win 6).blk t).view.emb (ix2 p o)) 0).val, idx2_lt0 _⟩ : Fin 100000).val
      = win0_6.index t (0 : Fin 2) * 5000 + p.val := by
    show win0_6.index t (0 : Fin 2) * 5000 + 1 * p.val = _; omega
  have ho : (⟨((((cfg0.win 6).blk t).view.emb (ix2 p o)) 1).val, idx2_lt1 _⟩ : Fin 32) = o :=
    Fin.ext (by show win0_6.index t (1 : Fin 2) * 32 + 1 * o.val = o.val; omega)
  unfold dense denseAt
  rw [ho]
  simp only [rd0 t _ p _ _ hn, rd1 t _ p _ hn, rd2 t, rd3 t, rd4 t, rd5 t]

/-- WHAT POINT `t` WRITES BACK is block `t` of `dense` of the arrays as the region finds them. -/
theorem flushed_eq (c : Dev nD) (t : Fin cfg0.N) :
    (dats m 0 c).flushed 6 t = ((cfg0.win 6).blk t).view.read (Elt Ideal)
      (dense (aggArr m c) (facCol m c) (wgArr m c) (bgRow m c) (wlArr m c) (blRow m c)) := by
  rw [Value.flushed6]
  unfold iblk
  exact flushed_core t _ _ _ _ _ _

/-- An index of the result array is in point `t`'s block iff each coordinate is in the block's range on its axis. -/
theorem mem_blk (t : Fin cfg0.N) (i : S100000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v30).slice (win0_6.rect t)).set ↔ _
  rw [View.set_slice_whole, Rect.mem_set_unit]
  exact Iff.rfl

/-- The twenty blocks of 5000 rows tile the 100000 rows: row r is in the block of point r / 5000. -/
theorem cover (i : S100000x32.Idx) : ∃ t : Fin cfg0.N, (cfg0.win 6).flush t = true ∧ i ∈ ((cfg0.win 6).blk t).view.set := by
  have hi0 : (i 0).val < 100000 := (i 0).isLt
  have hi1 : (i 1).val < 32 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 32 ≤ (i 1).val ∧ (i 1).val < win0_6.index t (1 : Fin 2) * 32 + 32; omega

/-- THE RESULT ARRAY after the run is `dense` of the arrays as the region finds them. -/
theorem final (c : Dev nD) : (dats m 0 c).arrAt 6 cfg0.N
    = dense (aggArr m c) (facCol m c) (wgArr m c) (bgRow m c) (wlArr m c) (blRow m c) :=
  (dats m 0 c).arrAt_eq_of_cover 6 _ (fun t _ => flushed_eq m c t) cover

end Cert.KernelIdeal.KValue

end
-- ==== Proof.LibSegment.lean ====
import Idealize.ShloMosaic.PureOps.Ideal
import Idealize.ShloMosaic.Lib.ValueIdx
import Idealize.ShloMosaic.Lib.StableHlo.Predicate
import Mathlib.Algebra.BigOperators.Group.Finset.Basic

/-!
# Row-wise scatter-add and row gather, read at an index

Two index-level reads of the host operations on a rank-2 table whose ROWS are addressed by an [E × 1] column of
start indices.

* A scatter with an additive body whose updates are whole rows: update row e is added into the operand row named
  by the e-th start index, read as a signed integer; a row whose start index is negative or past the last row is
  dropped. At (n, k) the result is the operand plus the sum, over the update rows whose start index is n, of
  their k-th entry.
* A gather of whole rows: result row e is the operand row named by the e-th start index, read signed and clamped
  into the table.
-/

noncomputable section

open scoped BigOperators

namespace Cert.Segment

open Idealize.ShloMosaic Idealize.ShloMosaic.ValueIdx
open Idealize.ShloMosaic.StableHlo.Predicate (ixP)

/-! ## The scatter: where update (e, k') lands -/

section Scatter

variable {N C E w : Nat} (d : ScatterDims ⟨2, ![N, C]⟩ ⟨2, ![E, 1]⟩ ⟨2, ![E, C]⟩)

/-- A coordinate of a rank-2 index on an axis known to be the first. -/
private theorem ix2_val_of_eq_zero {n0 n1 : Nat} (a : Fin n0) (b : Fin n1) (X : Fin 2) (hX : X = 0) :
    ((ix2 a b) X).val = a.val := by
  subst hX; rfl

/-- A coordinate of a rank-2 index on an axis known to be the second. -/
private theorem ix2_val_of_eq_one {n0 n1 : Nat} (a : Fin n0) (b : Fin n1) (X : Fin 2) (hX : X = 1) :
    ((ix2 a b) X).val = b.val := by
  subst hX; rfl

/-- An axis of a rank-2 shape that is not the second is the first. -/
private theorem fin2_eq_zero {X : Fin 2} (h : X ≠ 1) : X = 0 :=
  match X, h with
  | ⟨0, _⟩, _ => rfl
  | ⟨1, _⟩, h => absurd rfl h

/-- With the window on the updates' axis 1, the only update scatter axis is axis 0. -/
private theorem uScatter_eq_zero (huw : d.updateWindowDims = [1]) (X : Fin 2) (hX : X ∈ d.uScatter) : X = 0 := by
  have h2 := (List.mem_filter.1 hX).2
  rw [huw] at h2
  exact fin2_eq_zero (by simpa using h2)

/-- The start-indices index update (e, k') reads its one start component at: row e of the column. -/
theorem siIdx_rows (hsd : d.scatterDimsToOperandDims = [0]) (huw : d.updateWindowDims = [1]) (hivd : d.indexVectorDim = 1)
    (e : Fin E) (k' : Fin C) (c : Fin d.scatterDimsToOperandDims.length) :
    d.siIdx (ix2 e k') c = ixP e := by
  funext b
  match b with
  | ⟨0, _⟩ =>
    -- the one update scatter axis is axis 0 of the updates (axis 1 is the window axis); it reads the column's axis 0
    unfold ScatterDims.siIdx
    rw [dif_neg (by rw [hivd]; simp)]
    unfold ScatterDims.siCoord
    apply Fin.ext
    simp only [Fin.val_cast]
    refine ix2_val_of_eq_zero e k' _ ?_
    exact uScatter_eq_zero d huw _ (List.getElem_mem _)
  | ⟨1, _⟩ =>
    unfold ScatterDims.siIdx
    rw [dif_pos (by rw [hivd])]
    apply Fin.ext
    show c.val = 0
    have hl : d.scatterDimsToOperandDims.length = 1 := by rw [hsd]; rfl
    have := c.isLt
    omega

/-- On the operand's axis 0 the window of update (e, k') starts at the start index of row e, read signed … -/
theorem start_zero (hsd : d.scatterDimsToOperandDims = [0]) (huw : d.updateWindowDims = [1]) (hivd : d.indexVectorDim = 1)
    (idx : IVec ⟨2, ![E, 1]⟩ w) (e : Fin E) (k' : Fin C) :
    d.start (ix2 e k') idx (0 : Fin 2) = (idx (ixP e)).toInt := by
  unfold ScatterDims.start
  rw [dif_pos (show (0 : Fin 2) ∈ d.scatterDimsToOperandDims by rw [hsd]; exact List.mem_singleton.mpr rfl),
    siIdx_rows d hsd huw hivd]

/-- … and on axis 1, which the start index does not name, at 0. -/
theorem start_one (hsd : d.scatterDimsToOperandDims = [0]) (idx : IVec ⟨2, ![E, 1]⟩ w) (e : Fin E) (k' : Fin C) :
    d.start (ix2 e k') idx (1 : Fin 2) = 0 := by
  unfold ScatterDims.start
  rw [dif_neg (by rw [hsd]; simp)]

/-- The operand's axis 0 is inserted: the window coordinate there is 0 … -/
theorem window_zero (hiw : d.insertedWindowDims = [0]) (e : Fin E) (k' : Fin C) :
    d.window (ix2 e k') (0 : Fin 2) = 0 := by
  unfold ScatterDims.window
  rw [dif_neg]
  intro h
  have h2 := (List.mem_filter.1 h).2
  rw [hiw] at h2
  simp at h2

/-- … and on axis 1, the one kept axis, it is the update's column k'. -/
theorem window_one (huw : d.updateWindowDims = [1]) (hiw : d.insertedWindowDims = [0]) (e : Fin E) (k' : Fin C) :
    d.window (ix2 e k') (1 : Fin 2) = k'.val := by
  unfold ScatterDims.window
  have hmem : (1 : Fin 2) ∈ d.sKept := List.mem_filter.2 ⟨List.mem_finRange _, by rw [hiw]; simp⟩
  rw [dif_pos hmem]
  refine ix2_val_of_eq_one e k' _ ?_
  have hall : ∀ X ∈ d.updateWindowDims, X = 1 := by
    intro X hX; rw [huw] at hX; exact List.mem_singleton.1 hX
  exact hall _ (List.getElem_mem _)

/-- WHERE AN UPDATE LANDS. Update (e, k') lands on (n, k) exactly when the start index of row e, read signed, is n and
    k' = k; with a start index that is negative or at least N it lands nowhere. -/
theorem resultIdx?_rows (huw : d.updateWindowDims = [1]) (hiw : d.insertedWindowDims = [0])
    (hsd : d.scatterDimsToOperandDims = [0]) (hivd : d.indexVectorDim = 1)
    (idx : IVec ⟨2, ![E, 1]⟩ w) (e : Fin E) (k' : Fin C) (n : Fin N) (k : Fin C) :
    d.resultIdx? (ix2 e k') idx = some (ix2 n k) ↔ (idx (ixP e)).toInt = (n.val : ℤ) ∧ k' = k := by
  have hs0 := start_zero d hsd huw hivd idx e k'
  have hs1 := start_one d hsd idx e k'
  have hw0 := window_zero d hiw e k'
  have hw1 := window_one d huw hiw e k'
  have hn := n.isLt
  have hk' := k'.isLt
  unfold ScatterDims.resultIdx?
  constructor
  · intro h
    split at h
    · next hc =>
      have h' := Option.some.inj h
      have h0 : (d.start (ix2 e k') idx (0 : Fin 2) + (d.window (ix2 e k') (0 : Fin 2) : ℤ)).toNat = n.val :=
        congrArg (fun f : (⟨2, ![N, C]⟩ : Shape).Idx => (f (0 : Fin 2)).val) h'
      have h1 : (d.start (ix2 e k') idx (1 : Fin 2) + (d.window (ix2 e k') (1 : Fin 2) : ℤ)).toNat = k.val :=
        congrArg (fun f : (⟨2, ![N, C]⟩ : Shape).Idx => (f (1 : Fin 2)).val) h'
      have hc0 := (hc (0 : Fin 2)).1
      rw [hs0, hw0] at h0 hc0
      rw [hs1, hw1] at h1
      exact ⟨by omega, Fin.ext (by omega)⟩
    · exact absurd h (by simp)
  · rintro ⟨h0, rfl⟩
    have hc : ∀ a, 0 ≤ d.start (ix2 e k') idx a + (d.window (ix2 e k') a : ℤ)
        ∧ d.start (ix2 e k') idx a + (d.window (ix2 e k') a : ℤ) < ((⟨2, ![N, C]⟩ : Shape).size a : ℤ) := by
      refine Fin.forall_fin_two.2 ⟨?_, ?_⟩
      · rw [hs0, hw0]
        show 0 ≤ _ ∧ _ < (N : ℤ)
        omega
      · rw [hs1, hw1]
        show 0 ≤ _ ∧ _ < (C : ℤ)
        omega
    rw [dif_pos hc]
    congr 1
    refine funext (Fin.forall_fin_two.2 ⟨?_, ?_⟩)
    · apply Fin.ext
      show (d.start (ix2 e k') idx (0 : Fin 2) + (d.window (ix2 e k') (0 : Fin 2) : ℤ)).toNat = n.val
      rw [hs0, hw0]; omega
    · apply Fin.ext
      show (d.start (ix2 e k') idx (1 : Fin 2) + (d.window (ix2 e k') (1 : Fin 2) : ℤ)).toNat = k'.val
      rw [hs1, hw1]; omega

/-- THE SCATTER READ AT (n, k): the operand there plus the k-th entries of the update rows whose start index, read
    signed, is n. (The update indices landing on (n, k) are the (e, k) with start index n: one per such row e.) -/
theorem hostScatterAdd_rows (huw : d.updateWindowDims = [1]) (hiw : d.insertedWindowDims = [0])
    (hsd : d.scatterDimsToOperandDims = [0]) (hivd : d.indexVectorDim = 1)
    (x : (⟨2, ![N, C]⟩ : Shape).Idx → EReal) (idx : IVec ⟨2, ![E, 1]⟩ w) (upd : (⟨2, ![E, C]⟩ : Shape).Idx → EReal)
    (n : Fin N) (k : Fin C) :
    Ideal.hostScatterAdd d x idx upd (ix2 n k)
      = x (ix2 n k) + ∑ e ∈ Finset.univ.filter (fun e : Fin E => (idx (ixP e)).toInt = (n.val : ℤ)), upd (ix2 e k) := by
  unfold Ideal.hostScatterAdd
  congr 1
  -- every update index is (e, k'); it is in the left sum exactly when its start index is n and k' = k
  have hrow : ∀ j : (⟨2, ![E, C]⟩ : Shape).Idx,
      d.resultIdx? j idx = some (ix2 n k) ↔ (idx (ixP (j 0))).toInt = (n.val : ℤ) ∧ j 1 = k := by
    intro j
    obtain ⟨a, b, rfl⟩ : ∃ a b, j = ix2 a b := ⟨_, _, eq_ix2 j⟩
    exact resultIdx?_rows d huw hiw hsd hivd idx a b n k
  refine Finset.sum_nbij' (fun j => j 0) (fun e => ix2 e k) ?_ ?_ ?_ ?_ ?_
  · intro j hj
    exact Finset.mem_filter.2 ⟨Finset.mem_univ _, ((hrow j).1 (Finset.mem_filter.1 hj).2).1⟩
  · intro e he
    exact Finset.mem_filter.2 ⟨Finset.mem_univ _, (hrow (ix2 e k)).2 ⟨(Finset.mem_filter.1 he).2, rfl⟩⟩
  · intro j hj
    have hk := ((hrow j).1 (Finset.mem_filter.1 hj).2).2
    obtain ⟨a, b, rfl⟩ : ∃ a b, j = ix2 a b := ⟨_, _, eq_ix2 j⟩
    have hb : b = k := hk
    subst hb; rfl
  · intro e _
    rfl
  · intro j hj
    have hk := ((hrow j).1 (Finset.mem_filter.1 hj).2).2
    obtain ⟨a, b, rfl⟩ : ∃ a b, j = ix2 a b := ⟨_, _, eq_ix2 j⟩
    have hb : b = k := hk
    subst hb; rfl

end Scatter

/-! ## The gather of rows -/

section Gather

variable {α : Type} {N C E w : Nat} (d : GatherDims ⟨2, ![N, C]⟩ ⟨2, ![E, 1]⟩ ⟨2, ![E, C]⟩)

/-- With the offset on the result's axis 1, the only batch axis of the result is axis 0. -/
private theorem batchDims_eq_zero (hoff : d.offsetDims = [1]) (X : Fin 2) (hX : X ∈ d.batchDims) : X = 0 := by
  have h2 := (List.mem_filter.1 hX).2
  rw [hoff] at h2
  exact fin2_eq_zero (by simpa using h2)

/-- The start-indices index result (e, k) reads its one start component at: row e of the column. -/
theorem gather_siIdx_rows (hoff : d.offsetDims = [1]) (hsim : d.startIndexMap = [0]) (hivd : d.indexVectorDim = 1)
    (e : Fin E) (k : Fin C) (c : Fin d.startIndexMap.length) :
    d.siIdx (ix2 e k) c = ixP e := by
  funext b
  match b with
  | ⟨0, _⟩ =>
    -- the result's one batch axis is its axis 0 (axis 1 is the offset axis); it reads the column's axis 0
    unfold GatherDims.siIdx
    rw [dif_neg (by rw [hivd]; simp)]
    unfold GatherDims.siCoord
    apply Fin.ext
    simp only [Fin.val_cast]
    exact ix2_val_of_eq_zero e k _ (batchDims_eq_zero d hoff _ (List.getElem_mem _))
  | ⟨1, _⟩ =>
    unfold GatherDims.siIdx
    rw [dif_pos (by rw [hivd])]
    apply Fin.ext
    show c.val = 0
    have hl : d.startIndexMap.length = 1 := by rw [hsim]; rfl
    have := c.isLt
    omega

/-- THE GATHER READ AT (e, k): the operand's row named by the start index of e, read signed and clamped into
    [0, N − 1], at column k. (Axis 0 of the operand is collapsed and start-indexed, with slice size 1 there, so the
    row is the clamped start alone; axis 1 is not start-indexed, so the column is the result's offset coordinate.) -/
theorem gather_rows (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (k : Fin C) (hN : 0 < N) :
    Host.gather d x idx (ix2 e k) = x (ix2 ⟨min (idx (ixP e)).toInt.toNat (N - 1), by omega⟩ k) := by
  unfold Host.gather
  congr 1
  have hb : ∀ a : Fin 2, a ∉ d.operandBatchingDims := fun a => by rw [hob]; exact List.not_mem_nil
  refine funext (Fin.forall_fin_two.2 ⟨?_, ?_⟩)
  · -- the row
    apply Fin.ext
    show d.start (ix2 e k) idx (0 : Fin 2) + d.batchCoord (ix2 e k) (0 : Fin 2) + d.offCoord (ix2 e k) (0 : Fin 2)
      = min (idx (ixP e)).toInt.toNat (N - 1)
    have hk0 : (0 : Fin 2) ∉ d.sKept := by rw [GatherDims.mem_sKept, hcoll]; simp
    have hm : (0 : Fin 2) ∈ d.startIndexMap := by rw [hsim]; exact List.mem_singleton.mpr rfl
    have hsl : d.sliceSizes (0 : Fin 2) = 1 := d.slice_collapsed 0 (by rw [hcoll]; exact List.mem_singleton.mpr rfl)
    rw [GatherDims.batchCoord_eq_zero _ _ _ (hb 0), GatherDims.offCoord_eq_zero _ _ _ hk0, Nat.add_zero]
    unfold GatherDims.start
    rw [dif_pos hm, gather_siIdx_rows d hoff hsim hivd, hsl]
    rfl
  · -- the column
    apply Fin.ext
    show d.start (ix2 e k) idx (1 : Fin 2) + d.batchCoord (ix2 e k) (1 : Fin 2) + d.offCoord (ix2 e k) (1 : Fin 2) = k.val
    have hk1 : (1 : Fin 2) ∈ d.sKept := by rw [GatherDims.mem_sKept, hcoll, hob]; simp
    have hs1 : d.start (ix2 e k) idx (1 : Fin 2) = 0 := by
      unfold GatherDims.start
      rw [dif_neg (by rw [hsim]; simp)]
    rw [hs1, GatherDims.batchCoord_eq_zero _ _ _ (hb 1), Nat.zero_add]
    unfold GatherDims.offCoord
    rw [dif_pos hk1]
    refine ix2_val_of_eq_one e k _ ?_
    have hall : ∀ X ∈ d.offsetDims, X = 1 := by
      intro X hX; rw [hoff] at hX; exact List.mem_singleton.1 hX
    exact hall _ (List.getElem_mem _)

end Gather

end Cert.Segment

end
-- ==== Proof.Algebra.lean ====
/-
  The one algebraic law that joins the two programs, over abstract finite index sets and with every entry a real number.

  For a destination node with incoming edge set `Es`, write `a e k` for feature `k` of edge `e`'s source row, `b e` for the
  source's normalising factor, `dn` for the destination's, and `W k` for one column of the weight matrix. Aggregating the
  pre-scaled rows, scaling the aggregate by `dn` and then projecting with `W` gives the same number as projecting every
  source row first and aggregating the projections weighted by `b e * dn`: both are the double sum of
  `a e k * b e * dn * W k`. On the extended reals the law needs every entry finite (distributivity fails at infinities).
-/
import Idealize.ShloMosaic.PureOps.Ideal
import Mathlib.Algebra.BigOperators.Ring.Finset
import Mathlib.Tactic.Ring

noncomputable section

namespace Cert.Algebra

open Finset

/-- The coercion of a finite real sum is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The law over the reals. -/
theorem aggregate_project_real {ι κ : Type} [Fintype κ] (Es : Finset ι) (a : ι → κ → ℝ) (b : ι → ℝ) (dn : ℝ) (W : κ → ℝ) :
    ∑ k, ((0 + ∑ e ∈ Es, a e k * b e) * dn) * W k = 0 + ∑ e ∈ Es, (∑ k, a e k * W k) * (b e * dn) := by
  simp only [zero_add, Finset.sum_mul]
  rw [Finset.sum_comm]
  refine Finset.sum_congr rfl fun e _ => Finset.sum_congr rfl fun k _ => ?_
  ring

/-- The law on the extended reals, every entry finite; `b'` is the destination's factor as the second program reads it,
    equal to `dn` on the edges that are summed. -/
theorem aggregate_project {ι κ : Type} [Fintype κ] (Es : Finset ι) (a : ι → κ → EReal) (b b' : ι → EReal) (dn : EReal)
    (W : κ → EReal) (ha : ∀ e k, ∃ t : ℝ, a e k = (t : EReal)) (hb : ∀ e, ∃ t : ℝ, b e = (t : EReal))
    (hdn : ∃ t : ℝ, dn = (t : EReal)) (hW : ∀ k, ∃ t : ℝ, W k = (t : EReal)) (hb' : ∀ e ∈ Es, b' e = dn) :
    ∑ k, ((0 + ∑ e ∈ Es, a e k * b e) * dn) * W k = 0 + ∑ e ∈ Es, (∑ k, a e k * W k) * (b e * b' e) := by
  choose a' ha' using ha
  choose b₀ hb₀ using hb
  obtain ⟨dn', rfl⟩ := hdn
  choose W' hW' using hW
  have hR : ∑ e ∈ Es, (∑ k, a e k * W k) * (b e * b' e) = ∑ e ∈ Es, (∑ k, a e k * W k) * (b e * (dn' : EReal)) :=
    Finset.sum_congr rfl fun e he => by rw [hb' e he]
  rw [hR]
  simp only [ha', hb₀, hW']
  have h := congrArg (fun t : ℝ => (t : EReal)) (aggregate_project_real Es a' b₀ dn' W')
  simp only [EReal.coe_add, EReal.coe_mul, coe_sum, EReal.coe_zero] at h
  exact h

end Cert.Algebra

end
-- ==== Proof.Spec.lean ====
/-
  The two forms of the result, index by index, and why they agree.

  Node n's incoming edges are the edges whose destination index, read signed, is n. Write `r e` for edge e's source
  row (its wrapped source index clamped into the table), `fac` for the nodes' normalising factors.

  The kernel's form: aggregate the rows `x (r e) · fac (r e)` over n's incoming edges, scale the aggregate by
  `fac n`, multiply by W_gcn, add the bias, clamp at zero, multiply by W_lin, add the bias.
  The reference's form: multiply every row by W_gcn first, aggregate the products `(x W) (r e)` weighted by
  `fac (r e) · fac (c' e)` with `c' e` the destination index as a take reads it, and go on in the same way.

  On a summed edge the take reads the destination itself (an in-range index is neither wrapped nor clamped), and with
  every entry of x, W_gcn and fac real the two inner terms are the same double sum (Algebra.aggregate_project).
-/
import proofs.«412220_j42537356100337_3_alg».proof.Proof.Algebra
import Idealize.ShloMosaic.Lib.ValueIdx

noncomputable section

namespace Cert.Spec

open Idealize.ShloMosaic Idealize.ShloMosaic.ValueIdx

/-- The row a take reads: the start index read signed and clamped into the table of 100000 rows. -/
def clampIdx (v : BitVec 32) : Fin 100000 := ⟨min v.toInt.toNat (100000 - 1), by omega⟩

/-- The edges into node `n`: those whose destination index, read signed, is `n`. -/
def edgesInto (col : IVec ⟨1, ![1000000]⟩ 32) (n : Fin 100000) : Finset (Fin 1000000) :=
  Finset.univ.filter fun e => (col (ix1 e)).toInt = (n.val : ℤ)

variable (x : FVec Ideal ⟨2, ![100000, 64]⟩ .f32) (wg : FVec Ideal ⟨2, ![64, 64]⟩ .f32) (bg : FVec Ideal ⟨1, ![64]⟩ .f32)
  (wl : FVec Ideal ⟨2, ![64, 32]⟩ .f32) (bl : FVec Ideal ⟨1, ![32]⟩ .f32)
  (col row col' : IVec ⟨1, ![1000000]⟩ 32) (fac : FVec Ideal ⟨1, ![100000]⟩ .f32)

/-- The aggregate the kernel's host code leaves: node n's sum of pre-scaled source rows. -/
def aggAt (n : Fin 100000) (k : Fin 64) : EReal :=
  0 + ∑ e ∈ edgesInto col n, x (ix2 (clampIdx (row (ix1 e))) k) * fac (ix1 (clampIdx (row (ix1 e))))

/-- The kernel's form of entry (n, o). -/
def kernelForm (n : Fin 100000) (o : Fin 32) : EReal :=
  (∑ j : Fin 64, max ((∑ k : Fin 64, (aggAt x col row fac n k * fac (ix1 n)) * wg (ix2 k j)) + bg (ix1 j)) 0 * wl (ix2 j o))
    + bl (ix1 o)

/-- The reference's form of entry (n, o). -/
def refForm (n : Fin 100000) (o : Fin 32) : EReal :=
  (∑ j : Fin 64, max ((0 + ∑ e ∈ edgesInto col n, (∑ k : Fin 64, x (ix2 (clampIdx (row (ix1 e))) k) * wg (ix2 k j))
      * (fac (ix1 (clampIdx (row (ix1 e)))) * fac (ix1 (clampIdx (col' (ix1 e)))))) + bg (ix1 j)) 0 * wl (ix2 j o))
    + bl (ix1 o)

/-- The two forms agree when x, W_gcn and the factors are real and the take's index is the destination's on every
    edge whose destination is not negative. -/
theorem forms_eq (hx : ∀ i, ∃ t : ℝ, x i = (t : EReal)) (hwg : ∀ i, ∃ t : ℝ, wg i = (t : EReal))
    (hfac : ∀ i, ∃ t : ℝ, fac i = (t : EReal))
    (hcol' : ∀ e : Fin 1000000, 0 ≤ (col (ix1 e)).toInt → col' (ix1 e) = col (ix1 e)) (n : Fin 100000) (o : Fin 32) :
    kernelForm x wg bg wl bl col row fac n o = refForm x wg bg wl bl col row col' fac n o := by
  unfold kernelForm refForm aggAt
  refine congrArg (· + bl (ix1 o)) (Finset.sum_congr rfl fun j _ => ?_)
  refine congrArg (fun t => max (t + bg (ix1 j)) 0 * wl (ix2 j o)) ?_
  refine Algebra.aggregate_project (edgesInto col n) (fun e k => x (ix2 (clampIdx (row (ix1 e))) k))
    (fun e => fac (ix1 (clampIdx (row (ix1 e))))) (fun e => fac (ix1 (clampIdx (col' (ix1 e))))) (fac (ix1 n))
    (fun k => wg (ix2 k j)) (fun e k => hx _) (fun e => hfac _) (hfac _) (fun k => hwg _) (fun e he => ?_)
  have h : (col (ix1 e)).toInt = (n.val : ℤ) := (Finset.mem_filter.mp he).2
  have hn : n.val < 100000 := n.isLt
  show fac (ix1 (clampIdx (col' (ix1 e)))) = fac (ix1 n)
  rw [hcol' e (by omega)]
  refine congrArg (fun i => fac (ix1 i)) (Fin.ext ?_)
  show min (col (ix1 e)).toInt.toNat (100000 - 1) = n.val
  omega

end Cert.Spec

end
-- ==== Proof.RefValue.lean ====
/-
  The reference's result read at an index, at the ideal instance.

  Entry (n, o) of the result is the second layer applied to the clamped first layer, and the first layer at (n, j) is the
  bias plus the accumulating scatter's entry: zero plus the sum, over the edges whose destination index is n, of the
  gathered product row (x W_gcn) at the edge's source row, times the product of the two gathered factors. A take reads
  its table at the start index read signed and clamped; a vector spread along an axis reads the vector's entry.
-/
import proofs.«412220_j42537356100337_3_alg».proof.Proof.RefRead
import proofs.«412220_j42537356100337_3_alg».proof.Proof.LibSegment
import proofs.«412220_j42537356100337_3_alg».proof.Proof.Spec
import Idealize.ShloMosaic.Lib.StableHlo.Predicate
import Idealize.ShloMosaic.PureOps.Ideal.Laws

noncomputable section

namespace Cert.ReferenceIdeal.RefValue

open Cert.ReferenceIdeal Cert.ReferenceIdeal.ReadP Idealize.ShloMosaic Idealize.ShloMosaic.ValueIdx
open Idealize.ShloMosaic.StableHlo.Predicate

/-! ## Three spellings of the same indices -/

theorem ij_eq_ix2 {n m : Nat} (p : Fin n) (q : Fin m) : ij p q = ix2 p q :=
  funext fun a => by match a with | ⟨0, _⟩ => rfl | ⟨1, _⟩ => rfl
theorem ofFin_eq_ix1 {n : Nat} (k : Fin n) : Shape.Idx.ofFin k = ix1 k := (Shape.Idx.eq_ofFin (ix1 k)).symm

variable (x0 : FVec Ideal S100000x64 .f32) (x2 : FVec Ideal S64x64 .f32) (x3 : FVec Ideal S64 .f32)
  (x10 : FVec Ideal S64x32 .f32) (x11 : FVec Ideal S32 .f32) (x12 : IVec S2x1000000 32)

/-! ## The bias rows -/

theorem v44_at (n : Fin 100000) (j : Fin 64) : val_main_v44 (F := Ideal) x3 (ix2 n j) = x3 (ix1 j) := by
  unfold val_main_v44 val_main_v43
  rw [← ij_eq_ix2, bcast_cols, ofFin_eq_ix1]

theorem v105_at (n : Fin 100000) (o : Fin 32) : val_main_v105 (F := Ideal) x11 (ix2 n o) = x11 (ix1 o) := by
  unfold val_main_v105 val_main_v104
  rw [← ij_eq_ix2, bcast_cols, ofFin_eq_ix1]

/-! ## The index columns -/

theorem v41_at (e : Fin 1000000) : val_main_v41 (F := Ideal) x12 (ixP e) = val_main_v3 (F := Ideal) x12 (ix1 e) := by
  unfold val_main_v41
  rw [bcast_col1, ofFin_eq_ix1]
theorem v35_at (e : Fin 1000000) : val_main_v35 (F := Ideal) x12 (ixP e) = val_main_v34 (F := Ideal) x12 (ix1 e) := by
  unfold val_main_v35
  rw [bcast_col1, ofFin_eq_ix1]
theorem v19_at (e : Fin 1000000) : val_main_v19 (F := Ideal) x12 (ixP e) = val_main_v18 (F := Ideal) x12 (ix1 e) := by
  unfold val_main_v19
  rw [bcast_col1, ofFin_eq_ix1]
theorem v26_at (e : Fin 1000000) : val_main_v26 (F := Ideal) x12 (ixP e) = val_main_v25 (F := Ideal) x12 (ix1 e) := by
  unfold val_main_v26
  rw [bcast_col1, ofFin_eq_ix1]

/-- The two wrapped source-index vectors are one term. -/
theorem v18_eq : val_main_v18 (F := Ideal) x12 = val_main_v34 (F := Ideal) x12 := rfl

/-! ## The pair factor of an edge -/

theorem v20_at (e : Fin 1000000) : val_main_v20 (F := Ideal) x12 (ix1 e)
    = val_main_v13 (F := Ideal) x12 (ix1 (Spec.clampIdx (val_main_v34 (F := Ideal) x12 (ix1 e)))) := by
  unfold val_main_v20
  refine ((congrArg _ (ofFin_eq_ix1 e).symm).trans (gather_take _ rfl rfl rfl rfl _ _ e (by decide))).trans ?_
  refine congrArg (val_main_v13 (F := Ideal) x12) ((ofFin_eq_ix1 _).trans (congrArg ix1 (Fin.ext ?_)))
  show min (val_main_v19 (F := Ideal) x12 (ixP e)).toInt.toNat (100000 - 1)
    = min (val_main_v34 (F := Ideal) x12 (ix1 e)).toInt.toNat (100000 - 1)
  rw [v19_at, v18_eq]

theorem v27_at (e : Fin 1000000) : val_main_v27 (F := Ideal) x12 (ix1 e)
    = val_main_v13 (F := Ideal) x12 (ix1 (Spec.clampIdx (val_main_v25 (F := Ideal) x12 (ix1 e)))) := by
  unfold val_main_v27
  refine ((congrArg _ (ofFin_eq_ix1 e).symm).trans (gather_take _ rfl rfl rfl rfl _ _ e (by decide))).trans ?_
  refine congrArg (val_main_v13 (F := Ideal) x12) ((ofFin_eq_ix1 _).trans (congrArg ix1 (Fin.ext ?_)))
  show min (val_main_v26 (F := Ideal) x12 (ixP e)).toInt.toNat (100000 - 1)
    = min (val_main_v25 (F := Ideal) x12 (ix1 e)).toInt.toNat (100000 - 1)
  rw [v26_at]

theorem v38_at (e : Fin 1000000) (j : Fin 64) : val_main_v38 (F := Ideal) x12 (ix2 e j)
    = val_main_v13 (F := Ideal) x12 (ix1 (Spec.clampIdx (val_main_v34 (F := Ideal) x12 (ix1 e))))
      * val_main_v13 (F := Ideal) x12 (ix1 (Spec.clampIdx (val_main_v25 (F := Ideal) x12 (ix1 e)))) := by
  unfold val_main_v38 val_main_v37
  rw [← ij_eq_ix2, bcast_rows, ofFin_eq_ix1, val_main_v28_apply, v20_at, v27_at]
  rfl

/-! ## The projected rows, gathered -/

theorem v29_at (r : Fin 100000) (j : Fin 64) :
    val_main_v29 (F := Ideal) x0 x2 (ix2 r j) = ∑ k : Fin 64, x0 (ix2 r k) * x2 (ix2 k j) := by
  rw [val_main_v29_apply]
  refine Finset.sum_congr rfl fun k _ => ?_
  have hl : lidx_main_v29 (ix2 r j) k = ix2 r k := funext fun a => by match a with | ⟨0, _⟩ => rfl | ⟨1, _⟩ => rfl
  have hr : ridx_main_v29 (ix2 r j) k = ix2 k j := funext fun a => by match a with | ⟨0, _⟩ => rfl | ⟨1, _⟩ => rfl
  rw [hl, hr]

theorem v36_at (e : Fin 1000000) (j : Fin 64) : val_main_v36 (F := Ideal) x0 x2 x12 (ix2 e j)
    = ∑ k : Fin 64, x0 (ix2 (Spec.clampIdx (val_main_v34 (F := Ideal) x12 (ix1 e))) k) * x2 (ix2 k j) := by
  unfold val_main_v36
  refine (Segment.gather_rows _ rfl rfl rfl rfl rfl _ _ e j (by decide)).trans ?_
  refine (v29_at x0 x2 _ j).trans ?_
  have hr : (⟨min (val_main_v35 (F := Ideal) x12 (ixP e)).toInt.toNat (100000 - 1), by omega⟩ : Fin 100000)
      = Spec.clampIdx (val_main_v34 (F := Ideal) x12 (ix1 e)) := Fin.ext (by
    show min (val_main_v35 (F := Ideal) x12 (ixP e)).toInt.toNat (100000 - 1) = min (val_main_v34 (F := Ideal) x12 (ix1 e)).toInt.toNat (100000 - 1)
    rw [v35_at])
  rw [hr]

theorem v39_at (e : Fin 1000000) (j : Fin 64) : val_main_v39 (F := Ideal) x0 x2 x12 (ix2 e j)
    = (∑ k : Fin 64, x0 (ix2 (Spec.clampIdx (val_main_v34 (F := Ideal) x12 (ix1 e))) k) * x2 (ix2 k j))
      * (val_main_v13 (F := Ideal) x12 (ix1 (Spec.clampIdx (val_main_v34 (F := Ideal) x12 (ix1 e))))
        * val_main_v13 (F := Ideal) x12 (ix1 (Spec.clampIdx (val_main_v25 (F := Ideal) x12 (ix1 e))))) := by
  rw [val_main_v39_apply, v36_at, v38_at]
  rfl

end Cert.ReferenceIdeal.RefValue

end
-- ==== Proof.KernelRead.lean ====
/-
  The kernel's result array in the specification's kernel form, at the ideal instance.

  The aggregate at (n, k) is zero plus the sum, over the edges whose destination index is n, of `x · factor` at the
  edge's source row; the factor column at n is node n's factor; the bias rows are the bias vectors; the weights are the
  arguments. So the result array after the run is, index by index, `Spec.kernelForm` of the arguments, with the
  destination indices, wrapped source indices and factors the same terms of the edge array the reference computes.
-/
import proofs.«412220_j42537356100337_3_alg».proof.Proof.KernelHost
import proofs.«412220_j42537356100337_3_alg».proof.Proof.KernelValue
import proofs.«412220_j42537356100337_3_alg».proof.Proof.LibSegment
import proofs.«412220_j42537356100337_3_alg».proof.Proof.Spec
import proofs.«412220_j42537356100337_3_alg».proof.Proof.RefValue
import Idealize.ShloMosaic.Lib.StableHlo.Predicate
import Idealize.ShloMosaic.Lib.Pipeline.Value

noncomputable section

namespace Cert.KernelIdeal.KRead

open Cert.KernelIdeal Cert.KernelIdeal.Gen Idealize.ShloMosaic Idealize.ShloMosaic.TcCoe Idealize.SL.Sem
open Idealize.ShloMosaic.ValueIdx Idealize.ShloMosaic.StableHlo.Predicate
open Cert.ReferenceIdeal.RefValue (ij_eq_ix2 ofFin_eq_ix1)

variable (m : (ℓ : Loc nD τ sig) → Buf (Elt Ideal) ℓ)

/-- The arguments the result depends on, at their literal types. -/
abbrev xArr (c : Dev nD) : FVec Ideal S100000x64 .f32 := m ((c : Thread nD τ).loc main_arg0)
abbrev wgA (c : Dev nD) : FVec Ideal S64x64 .f32 := m ((c : Thread nD τ).loc main_arg2)
abbrev bgA (c : Dev nD) : FVec Ideal S64 .f32 := m ((c : Thread nD τ).loc main_arg3)
abbrev wlA (c : Dev nD) : FVec Ideal S64x32 .f32 := m ((c : Thread nD τ).loc main_arg10)
abbrev blA (c : Dev nD) : FVec Ideal S32 .f32 := m ((c : Thread nD τ).loc main_arg11)
abbrev edgeA (c : Dev nD) : IVec S2x1000000 32 := m ((c : Thread nD τ).loc main_arg12)
/-- The destination indices, the wrapped source indices and the factors: the reference's terms of the edge array. -/
abbrev colT (c : Dev nD) : IVec S1000000 32 := Cert.ReferenceIdeal.ReadP.val_main_v3 (F := Ideal) (edgeA m c)
abbrev rowT (c : Dev nD) : IVec S1000000 32 := Cert.ReferenceIdeal.ReadP.val_main_v34 (F := Ideal) (edgeA m c)
abbrev facT (c : Dev nD) : FVec Ideal S100000 .f32 := Cert.ReferenceIdeal.ReadP.val_main_v13 (F := Ideal) (edgeA m c)

/-- At the ideal instance the host's accumulating scatter is the exact sum. -/
theorem scatterAdd_ideal (x : FVec Ideal S100000x64 .f32) (idx : IVec S1000000x1 32) (upd : FVec Ideal S1000000x64 .f32) :
    (Host.scatterAdd (F := Ideal) (φ := .f32) scatter_S100000x64_S1000000x1_S1000000x64_1_0_0_1 x idx upd : FVec Ideal S100000x64 .f32)
      = Ideal.hostScatterAdd scatter_S100000x64_S1000000x1_S1000000x64_1_0_0_1 x idx upd := rfl

theorem agg_at (c : Dev nD) (n : Fin 100000) (k : Fin 64) :
    KValue.aggArr m c (ix2 n k) = Spec.aggAt (xArr m c) (colT m c) (rowT m c) (facT m c) n k := by
  have h : KValue.aggArr m c = (V m c main_v26 : FVec Ideal S100000x64 .f32) := rfl
  have e := (h.trans (KHost.agg_eq m c)).trans (scatterAdd_ideal _ _ _)
  refine (congrFun e (ix2 n k)).trans
    ((Segment.hostScatterAdd_rows scatter_S100000x64_S1000000x1_S1000000x64_1_0_0_1 rfl rfl rfl rfl _ _ _ n k).trans ?_)
  unfold Spec.aggAt Spec.edgesInto
  refine congr (congrArg HAdd.hAdd ?_) (Finset.sum_congr (Finset.filter_congr fun e _ => by rw [bcast_col1, ofFin_eq_ix1]) fun e _ => ?_)
  · exact (Ideal.ofBits_def _).trans Ideal.ofBits_zero_f32
  · refine (Segment.gather_rows _ rfl rfl rfl rfl rfl _ _ e k (by decide)).trans ?_
    have hr : (⟨min ((broadcastInDim S1000000x1 ![0] bcast_S1000000_S1000000x1_0 (rowT m c)) (ixP e)).toInt.toNat (100000 - 1), by omega⟩ : Fin 100000)
        = Spec.clampIdx (rowT m c (ix1 e)) := Fin.ext (by
      show min ((broadcastInDim S1000000x1 ![0] bcast_S1000000_S1000000x1_0 (rowT m c)) (ixP e)).toInt.toNat (100000 - 1)
        = min (rowT m c (ix1 e)).toInt.toNat (100000 - 1)
      rw [bcast_col1, ofFin_eq_ix1])
    rw [hr, mulf_apply, ← ij_eq_ix2, bcast_rows, ofFin_eq_ix1, ij_eq_ix2]

theorem fcol_at (c : Dev nD) (n : Fin 100000) : KValue.facCol m c (ix2 n 0) = facT m c (ix1 n) := by
  have h : KValue.facCol m c = (V m c main_v27 : FVec Ideal S100000x1 .f32) := rfl
  rw [h, KHost.fcol_eq m c]
  exact shapeCast_apply _ _ (ix2 n 0) (ix1 n) (by
    rw [Shape.rowMajor_val_one, Shape.rowMajor_val_two]; show n.val = n.val * 1 + 0; omega)

theorem bgrow_at (c : Dev nD) (j : Fin 64) : KValue.bgRow m c (ix2 0 j) = bgA m c (ix1 j) := by
  have h : KValue.bgRow m c = (V m c main_v28 : FVec Ideal S1x64 .f32) := rfl
  rw [h, KHost.bgrow_eq m c]
  exact shapeCast_apply _ _ (ix2 0 j) (ix1 j) (by
    rw [Shape.rowMajor_val_one, Shape.rowMajor_val_two]; show j.val = 0 * 64 + j.val; omega)

theorem blrow_at (c : Dev nD) (o : Fin 32) : KValue.blRow m c (ix2 0 o) = blA m c (ix1 o) := by
  have h : KValue.blRow m c = (V m c main_v29 : FVec Ideal S1x32 .f32) := rfl
  rw [h, KHost.blrow_eq m c]
  exact shapeCast_apply _ _ (ix2 0 o) (ix1 o) (by
    rw [Shape.rowMajor_val_one, Shape.rowMajor_val_two]; show o.val = 0 * 32 + o.val; omega)

theorem wg_eq (c : Dev nD) : KValue.wgArr m c = wgA m c := by
  have h : KValue.wgArr m c = (V m c main_arg2 : FVec Ideal S64x64 .f32) := rfl
  rw [h]; exact V_main_arg2 m c

theorem wl_eq (c : Dev nD) : KValue.wlArr m c = wlA m c := by
  have h : KValue.wlArr m c = (V m c main_arg10 : FVec Ideal S64x32 .f32) := rfl
  rw [h]; exact V_main_arg10 m c

/-- THE RESULT ARRAY after the run, index by index: the kernel's form of the specification. -/
theorem final_form (c : Dev nD) (n : Fin 100000) (o : Fin 32) : (dats m 0 c).arrAt 6 cfg0.N (ix2 n o)
    = Spec.kernelForm (xArr m c) (wgA m c) (bgA m c) (wlA m c) (blA m c) (colT m c) (rowT m c) (facT m c) n o := by
  rw [KValue.final]
  show KValue.denseAt (KValue.aggArr m c) (KValue.facCol m c) (KValue.wgArr m c) (KValue.bgRow m c) (KValue.wlArr m c)
    (KValue.blRow m c) n o = _
  unfold KValue.denseAt Spec.kernelForm
  refine congr (congrArg HAdd.hAdd (Finset.sum_congr rfl fun j _ => ?_)) (blrow_at m c o)
  rw [bgrow_at m c j, wl_eq m c]
  refine congrArg (fun t => max (t + bgA m c (ix1 j)) 0 * wlA m c (ix2 j o)) (Finset.sum_congr rfl fun k _ => ?_)
  rw [agg_at m c n k, fcol_at m c n, wg_eq m c]

end Cert.KernelIdeal.KRead

end
-- ==== Proof.RefResult.lean ====
/-
  The reference's accumulating scatter read at (n, j), and its result read at (n, o): the reference's form of the
  specification, with the destination indices, the wrapped source and destination indices and the factors the
  reference's own terms of the edge array.
-/
import proofs.«412220_j42537356100337_3_alg».proof.Proof.RefValue

noncomputable section

namespace Cert.ReferenceIdeal.RefValue

open Cert.ReferenceIdeal Cert.ReferenceIdeal.ReadP Idealize.ShloMosaic Idealize.ShloMosaic.ValueIdx
open Idealize.ShloMosaic.StableHlo.Predicate

variable (x0 : FVec Ideal S100000x64 .f32) (x2 : FVec Ideal S64x64 .f32) (x3 : FVec Ideal S64 .f32)
  (x10 : FVec Ideal S64x32 .f32) (x11 : FVec Ideal S32 .f32) (x12 : IVec S2x1000000 32)

/-- At the ideal instance the host's accumulating scatter is the exact sum. -/
theorem scatterAdd_ideal (x : FVec Ideal S100000x64 .f32) (idx : IVec S1000000x1 32) (upd : FVec Ideal S1000000x64 .f32) :
    (Host.scatterAdd (F := Ideal) (φ := .f32) scatter_S100000x64_S1000000x1_S1000000x64_1_0_0_1 x idx upd : FVec Ideal S100000x64 .f32)
      = Ideal.hostScatterAdd scatter_S100000x64_S1000000x1_S1000000x64_1_0_0_1 x idx upd := rfl

theorem v40_at (i : S100000x64.Idx) : val_main_v40 (F := Ideal) i = 0 := by
  rw [val_main_v40_apply, val_main_cst_9_apply]
  exact (Ideal.ofBits_def _).trans Ideal.ofBits_zero_f32

theorem call1_v0_at (i : S100000x64.Idx) : val_main_call1_v0 (F := Ideal) i = 0 := by
  rw [val_main_call1_v0_apply, val_main_call1_cst_apply]
  exact (Ideal.ofBits_def _).trans Ideal.ofBits_zero_f32

theorem v42_at (n : Fin 100000) (j : Fin 64) : val_main_v42 (F := Ideal) x0 x2 x12 (ix2 n j)
    = 0 + ∑ e ∈ Spec.edgesInto (val_main_v3 (F := Ideal) x12) n,
        (∑ k : Fin 64, x0 (ix2 (Spec.clampIdx (val_main_v34 (F := Ideal) x12 (ix1 e))) k) * x2 (ix2 k j))
          * (val_main_v13 (F := Ideal) x12 (ix1 (Spec.clampIdx (val_main_v34 (F := Ideal) x12 (ix1 e))))
            * val_main_v13 (F := Ideal) x12 (ix1 (Spec.clampIdx (val_main_v25 (F := Ideal) x12 (ix1 e))))) := by
  have e1 : val_main_v42 (F := Ideal) x0 x2 x12
      = (Host.scatterAdd (F := Ideal) (φ := .f32) scatter_S100000x64_S1000000x1_S1000000x64_1_0_0_1 (val_main_v40 (F := Ideal))
          (val_main_v41 (F := Ideal) x12) (val_main_v39 (F := Ideal) x0 x2 x12) : FVec Ideal S100000x64 .f32) := rfl
  have h1 := congrFun (e1.trans (scatterAdd_ideal _ _ _)) (ix2 n j)
  refine h1.trans ((Segment.hostScatterAdd_rows scatter_S100000x64_S1000000x1_S1000000x64_1_0_0_1 rfl rfl rfl rfl
    (val_main_v40 (F := Ideal)) (val_main_v41 (F := Ideal) x12) (val_main_v39 (F := Ideal) x0 x2 x12) n j).trans ?_)
  refine congr (congrArg HAdd.hAdd (v40_at _)) ?_
  unfold Spec.edgesInto
  exact Finset.sum_congr (Finset.filter_congr fun e _ => by rw [v41_at]) fun e _ => v39_at x0 x2 x12 e j

/-- THE RESULT at (n, o): the reference's form of the specification. -/
theorem result_at (n : Fin 100000) (o : Fin 32) : val_main_v106 (F := Ideal) x0 x2 x3 x10 x11 x12 (ix2 n o)
    = Spec.refForm x0 x2 x3 x10 x11 (val_main_v3 (F := Ideal) x12) (val_main_v34 (F := Ideal) x12)
        (val_main_v25 (F := Ideal) x12) (val_main_v13 (F := Ideal) x12) n o := by
  rw [val_main_v106_apply, val_main_v103_apply, v105_at, Ideal.addf_def]
  unfold Spec.refForm
  refine congrArg (· + x11 (ix1 o)) (Finset.sum_congr rfl fun j _ => ?_)
  have hl : lidx_main_v103 (ix2 n o) j = ix2 n j := funext fun a => by match a with | ⟨0, _⟩ => rfl | ⟨1, _⟩ => rfl
  have hr : ridx_main_v103 (ix2 n o) j = ix2 j o := funext fun a => by match a with | ⟨0, _⟩ => rfl | ⟨1, _⟩ => rfl
  rw [hl, hr, val_main_v100_apply, val_main_v45_apply, v42_at, v44_at, call1_v0_at, Ideal.maximumf_def, Ideal.addf_def]

end Cert.ReferenceIdeal.RefValue

end
-- ==== Proof.Factor.lean ====
/-
  Two facts about the reference's own terms, at the ideal instance.

  The normalising factor of a node is a real number whatever the edges are: it is either zero or the reciprocal square
  root of max(degree, 1), and max(d, 1) is +∞ (reciprocal root 0) or a real number at least 1 for every extended real d.
  An index that is not negative is not wrapped: the select on `index < 0` keeps it.
-/
import proofs.«412220_j42537356100337_3_alg».proof.Proof.RefRead
import Idealize.ShloMosaic.Lib.IdealHost
import Idealize.ShloMosaic.Lib.ValueIdx

noncomputable section

namespace Cert.ReferenceIdeal.Factor

open Cert.ReferenceIdeal Cert.ReferenceIdeal.ReadP Idealize.ShloMosaic Idealize.ShloMosaic.ValueIdx

/-- The reciprocal square root of max(d, 1) is a real number, for every extended real d. -/
theorem rsqrt_max_one_real (d : EReal) : ∃ t : ℝ, Ideal.rsqrt (max d 1) = (t : EReal) := by
  refine EReal.rec ?_ ?_ ?_ d
  · refine ⟨(Real.sqrt 1)⁻¹, ?_⟩
    rw [max_eq_right bot_le]
    show Ideal.rsqrt ((1 : ℝ) : EReal) = _
    rw [Ideal.rsqrt_coe, if_neg (by norm_num), if_neg (by norm_num)]
  · intro r
    refine ⟨(Real.sqrt (max r 1))⁻¹, ?_⟩
    have h : max (r : EReal) 1 = ((max r 1 : ℝ) : EReal) :=
      (EReal.coe_strictMono.monotone.map_max (a := r) (b := 1)).symm
    have h1 : (1 : ℝ) ≤ max r 1 := le_max_right r 1
    rw [h, Ideal.rsqrt_coe, if_neg (by linarith), if_neg (by linarith)]
  · exact ⟨0, by rw [max_eq_left le_top, Ideal.rsqrt_top]; rfl⟩

variable (x12 : IVec S2x1000000 32)

/-- Every node's normalising factor is a real number. -/
theorem fac_real (i : S100000.Idx) : ∃ t : ℝ, val_main_v13 (F := Ideal) x12 i = (t : EReal) := by
  rw [val_main_v13_apply]
  unfold Scalar.select
  split
  · rw [val_main_v12_apply, val_main_v11_apply]
    have h10 : val_main_v10 (F := Ideal) i = (1 : EReal) := by
      rw [val_main_v10_apply, val_main_cst_2_apply]
      exact (Ideal.ofBits_def _).trans Ideal.ofBits_one_f32
    rw [h10, Ideal.hostUnary_rsqrt_def, Ideal.maximumf_def]
    exact rsqrt_max_one_real _
  · rw [val_main_call0_v1_apply, val_main_call0_v0_apply, val_main_cst_3_apply]
    exact ⟨0, (Ideal.ofBits_def _).trans (Ideal.ofBits_zero_f32.trans EReal.coe_zero.symm)⟩

/-- A destination index that is not negative is read by a take as it is. -/
theorem wrap_nonneg (e : Fin 1000000) (h : 0 ≤ (val_main_v3 (F := Ideal) x12 (ix1 e)).toInt) :
    val_main_v25 (F := Ideal) x12 (ix1 e) = val_main_v3 (F := Ideal) x12 (ix1 e) := by
  rw [val_main_v25_apply, val_main_v22_apply, val_main_v21_apply]
  have hs : BitVec.slt (val_main_v3 (F := Ideal) x12 (ix1 e)) 0#32 = false := by
    simpa [BitVec.slt] using h
  show Scalar.select (BitVec.ofBool (BitVec.slt (val_main_v3 (F := Ideal) x12 (ix1 e)) 0#32)) _ _ = _
  rw [hs]
  rfl

end Cert.ReferenceIdeal.Factor

end
-- ==== Proof.Finite.lean ====
/-
  The precondition "every float input is finite", read back at the ideal instance: a float argument whose
  conjunct of the printed predicate holds has a real number at every index. Stated for argument 0 and argument 2.
-/
import proofs.«412220_j42537356100337_3_alg».proof.Pre_finite_inputs
import proofs.«412220_j42537356100337_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll
import Mathlib.Data.EReal.Basic

noncomputable section

namespace Cert.Finite

open Idealize.ShloMosaic

/-- The binary32 pattern with exponent all ones and fraction zero denotes the positive infinity. -/
theorem ofBits_inf : Ideal.ofBits .f32 0x7F800000#32 = (⊤ : EReal) := by
  simp [Ideal.ofBits, Ideal.ieee]

/-- An extended real whose absolute value, the larger of it and its negation, is below the top is a real number:
    the absolute value of either infinity is the top. -/
theorem real_of_abs_lt_top (a : EReal) (h : max a (-a) < ⊤) : ∃ r : ℝ, a = (r : EReal) := by
  induction a using EReal.rec with
  | bot => simp at h
  | top => simp at h
  | coe r => exact ⟨r, rfl⟩

/-- The scalar shape has one index. -/
instance : Subsingleton Cert.Pre_finite_inputs.S_.Idx := ⟨fun a b => funext fun d => d.elim0⟩

/-- One conjunct of the predicate, over any shape: when the conjunction over all indices of
    "the absolute value of the entry is below the positive infinity" is 1, every entry is a real number. -/
theorem reals_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (h : Host.reduce IntOp.andi
          (cmpf .olt (Host.absf x)
            (broadcastInDim s ![] hb (constant (F := Ideal) Cert.Pre_finite_inputs.S_ .f32 0x7F800000#32)))
          init hr hu ValueIdx.ix0 = 1#1) :
    ∀ i, ∃ r : ℝ, x i = (r : EReal) := by
  intro i
  have hi := Host.reduce_andi_all _ init hr hu ValueIdx.ix0 h i
  apply real_of_abs_lt_top
  have hi' : Ideal.cmp .olt (max (x i) (-(x i))) (Ideal.ofBits .f32 0x7F800000#32) = 1#1 := hi
  rw [ofBits_inf] at hi'
  have hb1 : ∀ b : Bool, BitVec.ofBool b = 1#1 → b = true := by decide
  have hlt := hb1 _ hi'
  simpa using hlt

variable [Cert.Pre_finite_inputs.Facts]

/-- The precondition read back: when the printed predicate is 1, every entry of argument 0 and every entry of
    argument 2 is a real number. The predicate is the conjunction, nested to the left, of one conjunct per float
    argument in order; its first and third conjuncts are the two read here. -/
theorem reals_of_pre
    (a0 : FVec Ideal Cert.Pre_finite_inputs.S100000x64 .f32) (a1 : FVec Ideal Cert.Pre_finite_inputs.S1000x64 .f32)
    (a2 : FVec Ideal Cert.Pre_finite_inputs.S64x64 .f32) (a3 : FVec Ideal Cert.Pre_finite_inputs.S64 .f32)
    (a4 : FVec Ideal Cert.Pre_finite_inputs.S64x64 .f32) (a5 : FVec Ideal Cert.Pre_finite_inputs.S64x64 .f32)
    (a6 : FVec Ideal Cert.Pre_finite_inputs.S64 .f32) (a7 : FVec Ideal Cert.Pre_finite_inputs.S64x64 .f32)
    (a8 : FVec Ideal Cert.Pre_finite_inputs.S64x64 .f32) (a9 : FVec Ideal Cert.Pre_finite_inputs.S64 .f32)
    (a10 : FVec Ideal Cert.Pre_finite_inputs.S64x32 .f32) (a11 : FVec Ideal Cert.Pre_finite_inputs.S32 .f32)
    (a12 : IVec Cert.Pre_finite_inputs.S2x1000000 32) (a13 : IVec Cert.Pre_finite_inputs.S100000 32)
    (a14 : IVec Cert.Pre_finite_inputs.S100000 32) (a15 : IVec Cert.Pre_finite_inputs.S2x50000 32)
    (h : Cert.Pre_finite_inputs.fn (F := Ideal) a0 a1 a2 a3 a4 a5 a6 a7 a8 a9 a10 a11 a12 a13 a14 a15 = fun _ => 1#1) :
    (∀ i, ∃ r : ℝ, a0 i = (r : EReal)) ∧ (∀ i, ∃ r : ℝ, a2 i = (r : EReal)) := by
  have h0 := congrFun h ValueIdx.ix0
  dsimp only [Cert.Pre_finite_inputs.fn, Cert.Pre_finite_inputs.fn_part1, Cert.Pre_finite_inputs.fn_part2, Cert.Pre_finite_inputs.fn_part3, Idealize.ShloMosaic.andi] at h0
  simp only [IntOp.andi_eq_one] at h0
  obtain ⟨⟨⟨⟨⟨⟨⟨⟨⟨⟨⟨h3, -⟩, h12⟩, -⟩, -⟩, -⟩, -⟩, -⟩, -⟩, -⟩, -⟩, -⟩ := h0
  exact ⟨reals_of_all a0 _ _ _ _ h3, reals_of_all a2 _ _ _ _ h12⟩

end Cert.Finite

end
-- ==== Proof.lean ====
/-
  A graph convolution followed by a linear head, against its reference, over the extended reals.

  Both programs compute, from the edge array, each edge's destination index c(e), its source row r(e) (a negative index
  wrapped once, then clamped into the table as a take does) and each node's factor fac(n), zero or the reciprocal square
  root of max(degree, 1). For node n write E(n) for the edges with destination index n (an index outside the table
  lands nowhere).

  The kernel's host code aggregates A(n, k) = ∑ over E(n) of x(r(e), k) · fac(r(e)); its one pipelined call, twenty
  blocks of 5000 rows, computes (∑_j max((∑_k (A(n,k) · fac(n)) · Wg(k,j)) + bg(j), 0) · Wl(j,o)) + bl(o): a change of
  float format is the identity on the extended reals and a matrix product into a zero accumulator is the sum of products.
  The reference multiplies first: H = x Wg, then S(n, j) = ∑ over E(n) of H(r(e), j) · (fac(r(e)) · fac(c'(e))) with c'(e)
  the destination index as a take reads it, which on E(n) is n itself, and applies the same bias, clamp and head.

  The two inner terms are the same double sum of x(r(e),k) · fac(r(e)) · fac(n) · Wg(k,j). Distributivity needs every
  entry finite: x and Wg are finite by the precondition, and fac is finite by its formula whatever the edges are. The
  branches of the reference that feed only the discarded virtual-node features do not enter its result term.
  `preserves` has no entry: the idealization rewrote nothing.
-/
import proofs.«412220_j42537356100337_3_alg».proof.Defs
import proofs.«412220_j42537356100337_3_alg».proof.Proof.Gen.Kernel
import proofs.«412220_j42537356100337_3_alg».proof.Proof.Gen.Kernel.Skeleton
import proofs.«412220_j42537356100337_3_alg».proof.Proof.Gen.Kernel.Launch
import proofs.«412220_j42537356100337_3_alg».proof.Proof.Gen.Kernel.Points
import proofs.«412220_j42537356100337_3_alg».proof.Proof.Gen.Kernel.Frame
import proofs.«412220_j42537356100337_3_alg».proof.Proof.Gen.KernelIdeal
import proofs.«412220_j42537356100337_3_alg».proof.Proof.Gen.KernelIdeal.Skeleton
import proofs.«412220_j42537356100337_3_alg».proof.Proof.Gen.KernelIdeal.Launch
import proofs.«412220_j42537356100337_3_alg».proof.Proof.Gen.KernelIdeal.Points
import proofs.«412220_j42537356100337_3_alg».proof.Proof.Gen.KernelIdeal.Frame
import proofs.«412220_j42537356100337_3_alg».proof.Proof.Gen.ReferenceIdeal
import proofs.«412220_j42537356100337_3_alg».proof.Proof.Gen.Pre_finite_inputs
import proofs.«412220_j42537356100337_3_alg».proof.Proof.Gen.KernelIdeal.Value
import proofs.«412220_j42537356100337_3_alg».proof.Proof.RefRun
import proofs.«412220_j42537356100337_3_alg».proof.Proof.RefRead
import proofs.«412220_j42537356100337_3_alg».proof.Proof.KernelRead
import proofs.«412220_j42537356100337_3_alg».proof.Proof.RefResult
import proofs.«412220_j42537356100337_3_alg».proof.Proof.Factor
import proofs.«412220_j42537356100337_3_alg».proof.Proof.Finite
import proofs.«412220_j42537356100337_3_alg».proof.Proof.Spec
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end, the kernel's result array at the kernel's form of the specification and the reference's at the
    reference's form, of arguments that agree; the forms are equal where x and W_gcn are finite. -/
theorem algebraic : Cert.algebraic_KernelIdeal_ReferenceIdeal := by
  intro m ρ m' ρ' hpre hagree
  refine ⟨fun c => (Cert.KernelIdeal.Gen.dats m 0 c).arrAt 6 Cert.KernelIdeal.cfg0.N,
    Cert.KernelIdeal.Value.run_blocks (F := Ideal) m ρ, ?_⟩
  refine (θ_run Cert.ReferenceIdeal.defs _ _).mono (fun r h c => ⟨(h c).1.trans ?_, (h c).2⟩)
    (Cert.ReferenceIdeal.ValueP.run (F := Ideal) m' ρ')
  obtain ⟨h0, -, h2, h3, -, -, -, -, -, -, h10, h11, h12, -⟩ := hagree c
  rw [Cert.ReferenceIdeal.ReadP.val_main_v106_eq, h0, h2, h3, h10, h11, h12]
  funext i
  obtain ⟨n, o, rfl⟩ : ∃ (n : Fin 100000) (o : Fin 32), i = ix2 n o := ⟨i 0, i 1, eq_ix2 i⟩
  refine ((Cert.ReferenceIdeal.RefValue.result_at _ _ _ _ _ _ n o).trans ?_).trans
    (Cert.KernelIdeal.KRead.final_form m c n o).symm
  obtain ⟨hx, hw⟩ := Cert.Finite.reals_of_pre _ _ _ _ _ _ _ _ _ _ _ _ _ _ _ _ (hpre c)
  exact (Cert.Spec.forms_eq _ _ _ _ _ _ _ _ _ hx hw (Cert.ReferenceIdeal.Factor.fac_real _)
    (Cert.ReferenceIdeal.Factor.wrap_nonneg _) n o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
